-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1000x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S1000x512 : Shape := ⟨2, ![1000, 512]⟩
abbrev S1000 : Shape := ⟨1, ![1000]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  main_v18

def fn {F : FTy → Type} [FloatOps F] (main_arg0 : FVec F S65536x512 .f32) (main_arg1 : IVec S65536 32) (main_arg2 : FVec F S1000x512 .f32) (main_arg3 : FVec F S1000x512 .f32) (main_arg4 : FVec F S1000 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000x512 .f32 := Host.absf main_arg3
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S1000 .f32 := Host.absf main_arg4
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_v13 main_v16
-- ==== Kernel.lean ====
abbrev S65536x512 : Shape := ⟨2, ![65536, 512]⟩
abbrev S65536 : Shape := ⟨1, ![65536]⟩
abbrev S1000x512 : Shape := ⟨2, ![1000, 512]⟩
abbrev S1000 : Shape := ⟨1, ![1000]⟩
abbrev S2x1000x1 : Shape := ⟨3, ![2, 1000, 1]⟩
abbrev S2x1000x512 : Shape := ⟨3, ![2, 1000, 512]⟩
abbrev S1024x512 : Shape := ⟨2, ![1024, 512]⟩
abbrev S1024 : Shape := ⟨1, ![1024]⟩
abbrev S1x1000x1 : Shape := ⟨3, ![1, 1000, 1]⟩
abbrev S1x1000x512 : Shape := ⟨3, ![1, 1000, 512]⟩
abbrev S1000x1 : Shape := ⟨2, ![1000, 1]⟩
abbrev S1000x1024 : Shape := ⟨2, ![1000, 1024]⟩
abbrev S1x1024 : Shape := ⟨2, ![1, 1024]⟩
abbrev S2x1000 : Shape := ⟨2, ![2, 1000]⟩
abbrev S_ : Shape := ⟨0, ![]⟩

abbrev nBuf : Space → Nat
  | .hbm => 83
  | .vmem => 7
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1000x512, .f32⟩
  | .hbm, ⟨3, _⟩ => ⟨S1000x512, .f32⟩
  | .hbm, ⟨4, _⟩ => ⟨S1000, .f32⟩
  | .hbm, ⟨5, _⟩ => ⟨S2x1000x1, .f32⟩
  | .hbm, ⟨6, _⟩ => ⟨S2x1000x512, .f32⟩
  | .hbm, ⟨7, _⟩ => ⟨S2x1000x512, .f32⟩
  | .hbm, ⟨8, _⟩ => ⟨S2x1000, .f32⟩
  | .hbm, ⟨9, _⟩ => ⟨S_, .f32⟩
  | .hbm, ⟨10, _⟩ => ⟨S1000, .f32⟩
  | .hbm, ⟨11, _⟩ => ⟨S_, .f32⟩
  | .hbm, ⟨12, _⟩ => ⟨S1000x512, .f32⟩
  | .hbm, ⟨13, _⟩ => ⟨S_, .f32⟩
  | .hbm, ⟨14, _⟩ => ⟨S1000x512, .f32⟩
  | .hbm, ⟨15, _⟩ => ⟨S_, .f32⟩
  | .hbm, ⟨16, _⟩ => ⟨S1000, .f32⟩
  | .hbm, ⟨17, _⟩ => ⟨S1000, .i1⟩
  | .hbm, ⟨18, _⟩ => ⟨S_, .f32⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000x1, .f32⟩
  | .hbm, ⟨23, _⟩ => ⟨S1000x512, .f32⟩
  | .hbm, ⟨24, _⟩ => ⟨S1000x512, .f32⟩
  | .hbm, ⟨25, _⟩ => ⟨S1000x512, .f32⟩
  | .hbm, ⟨26, _⟩ => ⟨S1000x512, .f32⟩
  | .hbm, ⟨27, _⟩ => ⟨S1000x512, .f32⟩
  | .hbm, ⟨28, _⟩ => ⟨S1000x512, .f32⟩
  | .hbm, ⟨29, _⟩ => ⟨S_, .f32⟩
  | .hbm, ⟨30, _⟩ => ⟨S1000x512, .f32⟩
  | .hbm, ⟨31, _⟩ => ⟨S1000x512, .f32⟩
  | .hbm, ⟨32, _⟩ => ⟨S1000, .f32⟩
  | .hbm, ⟨33, _⟩ => ⟨S_, .f32⟩
  | .hbm, ⟨34, _⟩ => ⟨S1000, .f32⟩
  | .hbm, ⟨35, _⟩ => ⟨S1000, .i1⟩
  | .hbm, ⟨36, _⟩ => ⟨S_, .f32⟩
  | .hbm, ⟨37, _⟩ => ⟨S1000, .f32⟩
  | .hbm, ⟨38, _⟩ => ⟨S1000, .i1⟩
  | .hbm, ⟨39, _⟩ => ⟨S_, .f32⟩
  | .hbm, ⟨40, _⟩ => ⟨S_, .f32⟩
  | .hbm, ⟨41, _⟩ => ⟨S1000, .f32⟩
  | .hbm, ⟨42, _⟩ => ⟨S1000, .f32⟩
  | .hbm, ⟨43, _⟩ => ⟨S1000, .f32⟩
  | .hbm, ⟨44, _⟩ => ⟨S_, .f32⟩
  | .hbm, ⟨45, _⟩ => ⟨S_, .f32⟩
  | .hbm, ⟨46, _⟩ => ⟨S1000, .f32⟩
  | .hbm, ⟨47, _⟩ => ⟨S1000, .f32⟩
  | .hbm, ⟨48, _⟩ => ⟨S_, .f32⟩
  | .hbm, ⟨49, _⟩ => ⟨S1000, .f32⟩
  | .hbm, ⟨50, _⟩ => ⟨S1000, .f32⟩
  | .hbm, ⟨51, _⟩ => ⟨S_, .f32⟩
  | .hbm, ⟨52, _⟩ => ⟨S1000, .f32⟩
  | .hbm, ⟨53, _⟩ => ⟨S1000, .i1⟩
  | .hbm, ⟨54, _⟩ => ⟨S1000, .f32⟩
  | .hbm, ⟨55, _⟩ => ⟨S1000, .f32⟩
  | .hbm, ⟨56, _⟩ => ⟨S1000x1, .f32⟩
  | .hbm, ⟨57, _⟩ => ⟨S_, .f32⟩
  | .hbm, ⟨58, _⟩ => ⟨S1000x1, .f32⟩
  | .hbm, ⟨59, _⟩ => ⟨S1000x1, .f32⟩
  | .hbm, ⟨60, _⟩ => ⟨S1000x1, .f32⟩
  | .hbm, ⟨61, _⟩ => ⟨S1000x512, .f32⟩
  | .hbm, ⟨62, _⟩ => ⟨S1000x512, .f32⟩
  | .hbm, ⟨63, _⟩ => ⟨S1000x512, .f32⟩
  | .hbm, ⟨64, _⟩ => ⟨S1000x512, .f32⟩
  | .hbm, ⟨65, _⟩ => ⟨S_, .f32⟩
  | .hbm, ⟨66, _⟩ => ⟨S1000x1, .f32⟩
  | .hbm, ⟨67, _⟩ => ⟨S1000x1, .f32⟩
  | .hbm, ⟨68, _⟩ => ⟨S1000x512, .f32⟩
  | .hbm, ⟨69, _⟩ => ⟨S1000x512, .f32⟩
  | .hbm, ⟨70, _⟩ => ⟨S1000x512, .f32⟩
  | .hbm, ⟨71, _⟩ => ⟨S1000x512, .f32⟩
  | .hbm, ⟨72, _⟩ => ⟨S1000x512, .f32⟩
  | .hbm, ⟨73, _⟩ => ⟨S1000x512, .f32⟩
  | .hbm, ⟨74, _⟩ => ⟨S_, .f32⟩
  | .hbm, ⟨75, _⟩ => ⟨S1000x1, .f32⟩
  | .hbm, ⟨76, _⟩ => ⟨S1000x1, .f32⟩
  | .hbm, ⟨77, _⟩ => ⟨S1000x512, .f32⟩
  | .hbm, ⟨78, _⟩ => ⟨S1000x512, .f32⟩
  | .hbm, ⟨79, _⟩ => ⟨S1000x512, .f32⟩
  | .hbm, ⟨80, _⟩ => ⟨S1000x512, .f32⟩
  | .hbm, ⟨81, _⟩ => ⟨S1000x512, .f32⟩
  | .hbm, ⟨82, _⟩ => ⟨S1000, .f32⟩
  | .local _ .vmem, ⟨0, _⟩ => ⟨S1024x512, .f32⟩
  | .local _ .vmem, ⟨1, _⟩ => ⟨S1024x512, .f32⟩
  | .local _ .vmem, ⟨2, _⟩ => ⟨S1024, .i32⟩
  | .local _ .vmem, ⟨3, _⟩ => ⟨S1024, .i32⟩
  | .local _ .vmem, ⟨4, _⟩ => ⟨S1x1000x1, .f32⟩
  | .local _ .vmem, ⟨5, _⟩ => ⟨S1x1000x512, .f32⟩
  | .local _ .vmem, ⟨6, _⟩ => ⟨S1x1000x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_11 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1000x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1000x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  inb_S1x1000x1_S1x1000x1_0_0_0 : ∀ a, (![0, 0, 0] : Fin 3 → Nat) a + S1x1000x1.size a ≤ S1x1000x1.size a
  h_S1x1000x1 : 0 < S1x1000x1.numel
  shapeCasts_S1x1000x1_S1000x1 : S1x1000x1.ShapeCasts S1000x1
  shapeCasts_S1000x1_S1x1000x1 : S1000x1.ShapeCasts S1x1000x1
  inb_S1x1000x512_S1x1000x512_0_0_0 : ∀ a, (![0, 0, 0] : Fin 3 → Nat) a + S1x1000x512.size a ≤ S1x1000x512.size a
  h_S1x1000x512 : 0 < S1x1000x512.numel
  shapeCasts_S1x1000x512_S1000x512 : S1x1000x512.ShapeCasts S1000x512
  shapeCasts_S1000x512_S1x1000x512 : S1000x512.ShapeCasts S1x1000x512
  inb_S1024x512_S1024x512_0_0 : ∀ a, (![0, 0] : Fin 2 → Nat) a + S1024x512.size a ≤ S1024x512.size a
  h_S1024x512 : 0 < S1024x512.numel
  inb_S1024_S1024_0 : ∀ a, (![0] : Fin 1 → Nat) a + S1024.size a ≤ S1024.size a
  h_S1024 : 0 < S1024.numel
  iota_S1000x1024_d0_w32 : S1000x1024.Iotas .tc 32 [0]
  shapeCasts_S1024_S1x1024 : S1024.ShapeCasts S1x1024
  broadcasts_S1x1024_S1000x1024 : S1x1024.Broadcasts S1000x1024
  natLt_1_32 : 1 < 32
  bitsLt_bf16_f32 : FTy.bits .bf16 < FTy.bits .f32
  reduces_S1000x1024_S1000 : S1000x1024.Reduces [1] S1000
  shapeCasts_S1000_S1000x1 : S1000.ShapeCasts S1000x1
  shapeCasts_S2x1000x1_S2x1000 : S2x1000x1.ShapeCasts S2x1000
  reducesTo_S2x1000_S1000_d0 : S2x1000.ReducesTo [0] S1000
  h_S_ : 0 < S_.numel
  reducesTo_S2x1000x512_S1000x512_d0 : S2x1000x512.ReducesTo [0] S1000x512
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S1000x512 : S_.BroadcastsInDim S1000x512 (![] : Fin 0 → Fin S1000x512.rank)
  bcast_S_S1000x1 : S_.BroadcastsInDim S1000x1 (![] : Fin 0 → Fin S1000x1.rank)
  dot_S1000x1024_S1024x512_S1000x512_1_0_0_1_n_n_wf : DotDims.WF S1000x1024 S1024x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S65536.size a
  hwx0_1 : ∀ i : grid0.Coords, EltTy.bits .i32 = 32 ∨ (Rect.block (s := S65536) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000x1.size a ≤ S2x1000x1.size a
  hwx0_2 : ∀ i : grid0.Coords, EltTy.bits .f32 = 32 ∨ (Rect.block (s := S2x1000x1) S1x1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000x512.size a ≤ S2x1000x512.size a
  hwx0_3 : ∀ i : grid0.Coords, EltTy.bits .f32 = 32 ∨ (Rect.block (s := S2x1000x512) S1x1000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1000x512.size a ≤ S2x1000x512.size a
  hwx0_4 : ∀ i : grid0.Coords, EltTy.bits .f32 = 32 ∨ (Rect.block (s := S2x1000x512) S1x1000x512.size (cc0_transform_4 i) (hinb0_4 i)).WholeWords (EltTy.packing .f32)

variable [Facts₀]

def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1000x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1000x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1000x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S1000x512 : Shape := ⟨2, ![1000, 512]⟩
abbrev S1000 : Shape := ⟨1, ![1000]⟩
abbrev S_ : Shape := ⟨0, ![]⟩
abbrev S65536x1 : Shape := ⟨2, ![65536, 1]⟩
abbrev S1000x1 : Shape := ⟨2, ![1000, 1]⟩

abbrev nBuf : Space → Nat
  | .hbm => 93
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1000x512, .f32⟩
  | .hbm, ⟨3, _⟩ => ⟨S1000x512, .f32⟩
  | .hbm, ⟨4, _⟩ => ⟨S1000, .f32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S1000, .f32⟩
  | .hbm, ⟨9, _⟩ => ⟨S65536x1, .i32⟩
  | .hbm, ⟨10, _⟩ => ⟨S1000, .f32⟩
  | .hbm, ⟨11, _⟩ => ⟨S_, .f32⟩
  | .hbm, ⟨12, _⟩ => ⟨S1000x512, .f32⟩
  | .hbm, ⟨13, _⟩ => ⟨S65536x1, .i32⟩
  | .hbm, ⟨14, _⟩ => ⟨S1000x512, .f32⟩
  | .hbm, ⟨15, _⟩ => ⟨S_, .f32⟩
  | .hbm, ⟨16, _⟩ => ⟨S1000, .f32⟩
  | .hbm, ⟨17, _⟩ => ⟨S1000, .i1⟩
  | .hbm, ⟨18, _⟩ => ⟨S_, .f32⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000x1, .f32⟩
  | .hbm, ⟨23, _⟩ => ⟨S1000x512, .f32⟩
  | .hbm, ⟨24, _⟩ => ⟨S1000x512, .f32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S_, .f32⟩
  | .hbm, ⟨37, _⟩ => ⟨S1000x512, .f32⟩
  | .hbm, ⟨38, _⟩ => ⟨S65536x1, .i32⟩
  | .hbm, ⟨39, _⟩ => ⟨S1000x512, .f32⟩
  | .hbm, ⟨40, _⟩ => ⟨S1000x512, .f32⟩
  | .hbm, ⟨41, _⟩ => ⟨S1000x512, .f32⟩
  | .hbm, ⟨42, _⟩ => ⟨S1000, .f32⟩
  | .hbm, ⟨43, _⟩ => ⟨S_, .f32⟩
  | .hbm, ⟨44, _⟩ => ⟨S1000, .f32⟩
  | .hbm, ⟨45, _⟩ => ⟨S1000, .i1⟩
  | .hbm, ⟨46, _⟩ => ⟨S_, .f32⟩
  | .hbm, ⟨47, _⟩ => ⟨S1000, .f32⟩
  | .hbm, ⟨48, _⟩ => ⟨S1000, .i1⟩
  | .hbm, ⟨49, _⟩ => ⟨S_, .f32⟩
  | .hbm, ⟨50, _⟩ => ⟨S_, .f32⟩
  | .hbm, ⟨51, _⟩ => ⟨S1000, .f32⟩
  | .hbm, ⟨52, _⟩ => ⟨S1000, .f32⟩
  | .hbm, ⟨53, _⟩ => ⟨S1000, .f32⟩
  | .hbm, ⟨54, _⟩ => ⟨S_, .f32⟩
  | .hbm, ⟨55, _⟩ => ⟨S_, .f32⟩
  | .hbm, ⟨56, _⟩ => ⟨S1000, .f32⟩
  | .hbm, ⟨57, _⟩ => ⟨S1000, .f32⟩
  | .hbm, ⟨58, _⟩ => ⟨S_, .f32⟩
  | .hbm, ⟨59, _⟩ => ⟨S1000, .f32⟩
  | .hbm, ⟨60, _⟩ => ⟨S1000, .f32⟩
  | .hbm, ⟨61, _⟩ => ⟨S_, .f32⟩
  | .hbm, ⟨62, _⟩ => ⟨S1000, .f32⟩
  | .hbm, ⟨63, _⟩ => ⟨S1000, .i1⟩
  | .hbm, ⟨64, _⟩ => ⟨S1000, .f32⟩
  | .hbm, ⟨65, _⟩ => ⟨S1000, .f32⟩
  | .hbm, ⟨66, _⟩ => ⟨S1000x1, .f32⟩
  | .hbm, ⟨67, _⟩ => ⟨S_, .f32⟩
  | .hbm, ⟨68, _⟩ => ⟨S1000x1, .f32⟩
  | .hbm, ⟨69, _⟩ => ⟨S1000x1, .f32⟩
  | .hbm, ⟨70, _⟩ => ⟨S1000x1, .f32⟩
  | .hbm, ⟨71, _⟩ => ⟨S1000x512, .f32⟩
  | .hbm, ⟨72, _⟩ => ⟨S1000x512, .f32⟩
  | .hbm, ⟨73, _⟩ => ⟨S1000x512, .f32⟩
  | .hbm, ⟨74, _⟩ => ⟨S1000x512, .f32⟩
  | .hbm, ⟨75, _⟩ => ⟨S_, .f32⟩
  | .hbm, ⟨76, _⟩ => ⟨S1000x1, .f32⟩
  | .hbm, ⟨77, _⟩ => ⟨S1000x1, .f32⟩
  | .hbm, ⟨78, _⟩ => ⟨S1000x512, .f32⟩
  | .hbm, ⟨79, _⟩ => ⟨S1000x512, .f32⟩
  | .hbm, ⟨80, _⟩ => ⟨S1000x512, .f32⟩
  | .hbm, ⟨81, _⟩ => ⟨S1000x512, .f32⟩
  | .hbm, ⟨82, _⟩ => ⟨S1000x512, .f32⟩
  | .hbm, ⟨83, _⟩ => ⟨S1000x512, .f32⟩
  | .hbm, ⟨84, _⟩ => ⟨S_, .f32⟩
  | .hbm, ⟨85, _⟩ => ⟨S1000x1, .f32⟩
  | .hbm, ⟨86, _⟩ => ⟨S1000x1, .f32⟩
  | .hbm, ⟨87, _⟩ => ⟨S1000x512, .f32⟩
  | .hbm, ⟨88, _⟩ => ⟨S1000x512, .f32⟩
  | .hbm, ⟨89, _⟩ => ⟨S1000x512, .f32⟩
  | .hbm, ⟨90, _⟩ => ⟨S1000x512, .f32⟩
  | .hbm, ⟨91, _⟩ => ⟨S1000x512, .f32⟩
  | .hbm, ⟨92, _⟩ => ⟨S1000, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S1000 : S_.BroadcastsInDim S1000 (![] : Fin 0 → Fin S1000.rank)
  bcast_S65536_S65536x1_0 : S65536.BroadcastsInDim S65536x1 (![0] : Fin 1 → Fin S65536x1.rank)
  bcast_S_S1000x512 : S_.BroadcastsInDim S1000x512 (![] : Fin 0 → Fin S1000x512.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S1000x1 : S_.BroadcastsInDim S1000x1 (![] : Fin 0 → Fin S1000x1.rank)
  scatter_S1000_S65536x1_S65536_n_0_0_1_wf : ScatterDims.WF S1000 S65536x1 S65536 [] [0] [0] 1
  scatter_S1000x512_S65536x1_S65536x512_1_0_0_1_wf : ScatterDims.WF S1000x512 S65536x1 S65536x512 [1] [0] [0] 1
  gather_S1000x512_S65536x1_S65536x512_1_0_n_n_0_1_1512_wf : GatherDims.WF S1000x512 S65536x1 S65536x512 [1] [0] [] [0] [] 1 ![1, 512]

variable [Facts₀]

def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def scatter_S1000x512_S65536x1_S65536x512_1_0_0_1 : ScatterDims S1000x512 S65536x1 S65536x512 where
  updateWindowDims := [1]
  insertedWindowDims := [0]
  scatterDimsToOperandDims := [0]
  indexVectorDim := 1
  wf := scatter_S1000x512_S65536x1_S65536x512_1_0_0_1_wf
def gather_S1000x512_S65536x1_S65536x512_1_0_n_n_0_1_1512 : GatherDims S1000x512 S65536x1 S65536x512 where
  offsetDims := [1]
  collapsedSliceDims := [0]
  operandBatchingDims := []
  startIndicesBatchingDims := []
  startIndexMap := [0]
  indexVectorDim := 1
  sliceSizes := ![1, 512]
  wf := gather_S1000x512_S65536x1_S65536x512_1_0_n_n_0_1_1512_wf

class Facts : Prop extends Facts₀ where

variable [Facts]
-- ==== Proof.K.Shared.lean ====
/-
  What the two control cases of the per-class reduction kernel share: the program's @main read as the region
  followed by its host lines, the side conditions of those lines (they touch only buffers that bypass the
  region, allocate nothing, and write no array the pipeline stages), each window's block at a grid point, the
  argument arrays read back after the run, and the one branch of the body decided over the grid: the
  accumulators are reset exactly at the first step of each core's half of the batch.
-/
import proofs.«419888_j24352464569636_3_alg».proof.Proof.Gen.Kernel.Launch
import proofs.«419888_j24352464569636_3_alg».proof.Proof.Gen.Kernel.Skeleton
import proofs.«419888_j24352464569636_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2, hostOps1_3, hostOps1_4, hostOps1_5, hostOps1_6]

/-- Core `c`'s buffer contents when the region is entered: no host line comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

set_option maxHeartbeats 4000000 in
/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [] tailOps (by simp only [List.Forall])
    (by simp only [List.Forall]) main_chain

/-- The lines after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- No line of this stretch writes an array the pipeline stages: each writes its own result buffer. -/
theorem hostOps1_keeps : (hostOps1 : List (HloOp τ sig (Elt F))).Forall fun op => ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_5_keeps : (hostOps1_5 : List (HloOp τ sig (Elt F))).Forall fun op => ∀ w, Proc.devRef .tc (Pipeline.arrRef spec0 w) ∉ op.writes := by
  simp only [hostOps1_5, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_6_keeps : (hostOps1_6 : List (HloOp τ sig (Elt F))).Forall fun op => ∀ w, Proc.devRef .tc (Pipeline.arrRef spec0 w) ∉ op.writes := by
  simp only [hostOps1_6, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-- No host line after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run that ends with every staged array at what the proof data computes and every other buffer as the
    host lines leave it: the five argument arrays end as launched (the two staged ones are inputs, never
    written back; the other three bypass the region and no host line writes them). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The body's branch -/

/-- The body's one branch: the second grid coordinate (the step within a core's half of the batch) is zero. -/
abbrev cond0_0 (i : grid0.Coords) : Prop := (Scalar.cmpi .ne (Scalar.extui (Scalar.cmpi .eq (BitVec.ofNat 32 (i 1).val) 0#32)) 0#32) = 1#1
/-- It holds at the points ≡ 0 (mod 32): the first step of each of the two cores. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs -/

/-- One staging buffer of each output window, through which its contents are stated. -/
abbrev VO0_2 : View sig .tc .vmem S1x1000x1 .f32 := (Memref.whole cc0_stg2_0 : Memref sig .tc .vmem S1x1000x1 .f32).view
abbrev VO0_3 : View sig .tc .vmem S1x1000x512 .f32 := (Memref.whole cc0_stg3_0 : Memref sig .tc .vmem S1x1000x512 .f32).view
abbrev VO0_4 : View sig .tc .vmem S1x1000x512 .f32 := (Memref.whole cc0_stg4_0 : Memref sig .tc .vmem S1x1000x512 .f32).view
/-- Each window's current staging memref at point `t`, as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1000x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1000x512 .f32 := win0_4.stage (cfg0.slots t 4)
abbrev hs0_4 (t : Fin cfg0.N) : (ms0_4 t).IsWhole := hstage0_4 ((cfg0.slots t 4).cast nbuf0_4)

end Cert.Kernel.Fr

end
-- ==== Proof.K.RunReset.lean ====
/-
  The kernel body at the first step of a core's half of the batch (the branch taken): the three accumulators
  are stored whole with zeros before anything reads them, so they may hold anything on entry; then each is read
  back, the tile's contribution added, and stored again. What the stores leave in each accumulator's staging
  buffer is found as a list of pieces by running the body.
-/
import proofs.«419888_j24352464569636_3_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs, the inputs' at their contents, the three accumulators' at anything: it runs
    to the continuation holding the inputs' as they were and each accumulator's buffer with its pieces written. -/
noncomputable def kernelRun0_A (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) :
    Σ' (L2 : List (View.Piece (Elt F) S1x1000x1 .f32)) (L3 : List (View.Piece (Elt F) S1x1000x512 .f32)), { L4 : List (View.Piece (Elt F) S1x1000x512 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
              ∗ (∃ f, arg4.view.loc (c : Thread nD τ) ↦[arg4.view.set]{fullShare} arg4.view.writes (Elt F) f L2)
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Fr

end
-- ==== Proof.K.RunAcc.lean ====
/-
  The kernel body at every later step of a core's half of the batch (the branch not taken): each accumulator
  is read before it is stored, so its staging buffer must hold what the step before left (`xo2`, `xo3`, `xo4`);
  the tile's contribution is added and the sum stored whole.
-/
import proofs.«419888_j24352464569636_3_alg».proof.Proof.K.RunReset

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs, the inputs' at their contents, the three accumulators' at their running
    contents: it runs to the continuation holding the inputs' as they were and each accumulator's buffer with
    its pieces written. -/
noncomputable def kernelRun0_B (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) :
    Σ' (L2 : List (View.Piece (Elt F) S1x1000x1 .f32)) (L3 : List (View.Piece (Elt F) S1x1000x512 .f32)), { L4 : List (View.Piece (Elt F) S1x1000x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
              ∗ (∃ f, arg4.view.loc (c : Thread nD τ) ↦[arg4.view.set]{fullShare} arg4.view.writes (Elt F) f L2)
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Fr

end
-- ==== Proof.K.FrameData.lean ====
/-
  What each control case of the body leaves in the three accumulators' staging buffers (its stores tile each
  buffer, so the buffer's contents are the stores read back), what the accumulators hold after each grid point
  (a recursion on the point: the reset case starts a core's half of the batch afresh, every later step adds to
  what the step before left, the buffers not being written back in between), and the pipeline's proof data.
-/
import proofs.«419888_j24352464569636_3_alg».proof.Proof.K.RunAcc

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case's stores into accumulator 2 tile its buffer. -/
theorem coverA_2 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) (y : S1x1000x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x1000x1.size (by sl_kernel_rfl) y

/-- What the reset case leaves in accumulator 2: its stores read back. -/
def outA_2 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) : Vec F S1x1000x1 .f32 :=
  VO0_2.read (Elt F) (VO0_2.writes (Elt F) VO0_2.junk (kernelRun0_A c i arg2 harg2 arg3 harg3 arg4 harg4 arg5 harg5 arg6 harg6 hc0 x0 x1).1)

/-- The accumulating case's stores into accumulator 2 tile its buffer. -/
theorem coverB_2 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) (y : S1x1000x1.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x1000x1.size (by sl_kernel_rfl) y

/-- What the accumulating case leaves in accumulator 2: its stores read back. -/
def outB_2 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) : Vec F S1x1000x1 .f32 :=
  VO0_2.read (Elt F) (VO0_2.writes (Elt F) VO0_2.junk (kernelRun0_B c i arg2 harg2 arg3 harg3 arg4 harg4 arg5 harg5 arg6 harg6 hc0 x0 x1 xo2 xo3 xo4).1)

/-- The reset case's stores into accumulator 3 tile its buffer. -/
theorem coverA_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) (y : S1x1000x512.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x1000x512.size (by sl_kernel_rfl) y

/-- What the reset case leaves in accumulator 3: its stores read back. -/
def outA_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) : Vec F S1x1000x512 .f32 :=
  VO0_3.read (Elt F) (VO0_3.writes (Elt F) VO0_3.junk (kernelRun0_A c i arg2 harg2 arg3 harg3 arg4 harg4 arg5 harg5 arg6 harg6 hc0 x0 x1).2.1)

/-- The accumulating case's stores into accumulator 3 tile its buffer. -/
theorem coverB_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) (y : S1x1000x512.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x1000x512.size (by sl_kernel_rfl) y

/-- What the accumulating case leaves in accumulator 3: its stores read back. -/
def outB_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) : Vec F S1x1000x512 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- The reset case's stores into accumulator 4 tile its buffer. -/
theorem coverA_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) (y : S1x1000x512.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1000x512.size (by sl_kernel_rfl) y

/-- What the reset case leaves in accumulator 4: its stores read back. -/
def outA_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) : Vec F S1x1000x512 .f32 :=
  VO0_4.read (Elt F) (VO0_4.writes (Elt F) VO0_4.junk (kernelRun0_A c i arg2 harg2 arg3 harg3 arg4 harg4 arg5 harg5 arg6 harg6 hc0 x0 x1).2.2.1)

/-- The accumulating case's stores into accumulator 4 tile its buffer. -/
theorem coverB_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) (y : S1x1000x512.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x1000x512.size (by sl_kernel_rfl) y

/-- What the accumulating case leaves in accumulator 4: its stores read back. -/
def outB_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) : Vec F S1x1000x512 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the accumulators hold after each point -/

/-- The three accumulators' contents, in window order. -/
abbrev Acc (F : FTy → Type) : Type := Vec F S1x1000x1 .f32 × Vec F S1x1000x512 .f32 × Vec F S1x1000x512 .f32

/-- After a point of the reset case: that case's contents, from the point's two input blocks alone. -/
def accA (c : Dev nD) (t : Fin cfg0.N) (h0 : t.val % 32 = 0) : Acc F :=
  (outA_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
   outA_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
   outA_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))

/-- After a point of the accumulating case: that case's contents, over what the point before left (`p`). -/
def accB (c : Dev nD) (t : Fin cfg0.N) (h0 : ¬t.val % 32 = 0) (p : Acc F) : Acc F :=
  (outB_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2,
   outB_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2,
   outB_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2)

/-- THE ACCUMULATION: what the three accumulators hold after the body at position `n`, by recursion on the position. -/
def outsAt0 (c : Dev nD) : (n : ℕ) → n < cfg0.N → Acc F
  | 0, hn => accA m c ⟨0, hn⟩ (Nat.zero_mod _)
  | n + 1, hn =>
    if h0 : (n + 1) % 32 = 0 then accA m c ⟨n + 1, hn⟩ h0
    else accB m c ⟨n + 1, hn⟩ h0 (outsAt0 c n (Nat.lt_of_succ_lt hn))

theorem outsAt0_A (c : Dev nD) (t : Fin cfg0.N) (h0 : t.val % 32 = 0) :
    outsAt0 m c t.val t.isLt = accA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = accB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the accumulators' at `outsAt0`; the invariant is the scoped rest and
    the generator register, which the body never reads; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point of the accumulating case accumulator 2's staging buffer holds what the body left at the point
    before: the point is not a core's first, and the buffer is written back only after a core's last point. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- At a point of the accumulating case accumulator 3's staging buffer holds what the body left at the point
    before: the point is not a core's first, and the buffer is written back only after a core's last point. -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- At a point of the accumulating case accumulator 4's staging buffer holds what the body left at the point
    before: the point is not a core's first, and the buffer is written back only after a core's last point. -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

end Cert.Kernel.Fr

end
-- ==== Proof.K.Frame.lean ====
/-
  The frame of the per-class reduction program: the body's obligation at a generic grid point (the closed form
  of the branch says which case the point is in; in the accumulating case each accumulator holds what the point
  before left), the run of @main with every staged array named, and the frame claim.
-/
import proofs.«419888_j24352464569636_3_alg».proof.Proof.K.FrameData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' memrefs hold their blocks; the closed form of the branch says which case
    the point is in; in the accumulating case each accumulator holds what the point before left; so that case's
    run applies, and what it leaves is this point's `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 32 = 0
  · rw [outsAt0_A m c t h0]
    unfold accA outA_2 outA_3 outA_4
    have hc2 := coverA_2 (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
    have hc3 := coverA_3 (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
    have hc4 := coverA_4 (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
    generalize kernelRun0_A (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) = R at hc2 hc3 hc4 ⊢
    obtain ⟨L2, L3, L4, hrun⟩ := R
    dsimp only at hc2 hc3 hc4 ⊢
    iintro ⟨HΦ, Ho, ⟨%d0, H0⟩, ⟨%d1, H1⟩, ⟨%d2, H2⟩, ⟨%d3, H3⟩, ⟨%d4, H4⟩⟩
    iapply (hrun Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ hc2
    isplitl [H3]
    · unfold owns; iexists _; isplitr
      swap; · iexact H3
      ipureintro; exact View.read_writes_of_cover _ _ _ _ _ hc3
    unfold owns; iexists _; isplitr
    swap; · iexact H4
    ipureintro; exact View.read_writes_of_cover _ _ _ _ _ hc4
  · rw [outsAt0_B m c t h0]
    simp only [before0_2_B m c t h0, before0_3_B m c t h0, before0_4_B m c t h0]
    unfold accB outB_2 outB_3 outB_4
    generalize (outsAt0 m c (t.val - 1) (Nat.lt_of_le_of_lt (Nat.sub_le _ _) t.isLt)) = p
    have hc2 := coverB_2 (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2
    have hc3 := coverB_3 (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2
    have hc4 := coverB_4 (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2
    generalize kernelRun0_B (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2 = R at hc2 hc3 hc4 ⊢
    obtain ⟨L2, L3, L4, hrun⟩ := R
    dsimp only at hc2 hc3 hc4 ⊢
    iintro ⟨HΦ, Ho, ⟨%d0, H0⟩, ⟨%d1, H1⟩, ⟨%d2, H2⟩, ⟨%d3, H3⟩, ⟨%d4, H4⟩⟩
    iapply (hrun Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ hc2
    isplitl [H3]
    · unfold owns; iexists _; isplitr
      swap; · iexact H3
      ipureintro; exact View.read_writes_of_cover _ _ _ _ _ hc3
    unfold owns; iexists _; isplitr
    swap; · iexact H4
    ipureintro; exact View.read_writes_of_cover _ _ _ _ _ hc4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 4000000 in
/-- Every weakly fair execution of @main terminates, and every final state has every staged array at what the
    library computes from the proof data and every other unscoped buffer as the host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any instance of the float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.KI.Shared.lean ====
/-
  What the two control cases of the per-class reduction kernel share: the program's @main read as the region
  followed by its host lines, the side conditions of those lines (they touch only buffers that bypass the
  region, allocate nothing, and write no array the pipeline stages), each window's block at a grid point, the
  argument arrays read back after the run, and the one branch of the body decided over the grid: the
  accumulators are reset exactly at the first step of each core's half of the batch.
-/
import proofs.«419888_j24352464569636_3_alg».proof.Proof.Gen.KernelIdeal.Launch
import proofs.«419888_j24352464569636_3_alg».proof.Proof.Gen.KernelIdeal.Skeleton
import proofs.«419888_j24352464569636_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2, hostOps1_3, hostOps1_4, hostOps1_5, hostOps1_6]

/-- Core `c`'s buffer contents when the region is entered: no host line comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

set_option maxHeartbeats 4000000 in
/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [] tailOps (by simp only [List.Forall])
    (by simp only [List.Forall]) main_chain

/-- The lines after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- No line of this stretch writes an array the pipeline stages: each writes its own result buffer. -/
theorem hostOps1_keeps : (hostOps1 : List (HloOp τ sig (Elt F))).Forall fun op => ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_5_keeps : (hostOps1_5 : List (HloOp τ sig (Elt F))).Forall fun op => ∀ w, Proc.devRef .tc (Pipeline.arrRef spec0 w) ∉ op.writes := by
  simp only [hostOps1_5, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array the pipeline stages: each writes its own result buffer. -/
theorem hostOps1_6_keeps : (hostOps1_6 : List (HloOp τ sig (Elt F))).Forall fun op => ∀ w, Proc.devRef .tc (Pipeline.arrRef spec0 w) ∉ op.writes := by
  simp only [hostOps1_6, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-- No host line after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run that ends with every staged array at what the proof data computes and every other buffer as the
    host lines leave it: the five argument arrays end as launched (the two staged ones are inputs, never
    written back; the other three bypass the region and no host line writes them). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The body's branch -/

/-- The body's one branch: the second grid coordinate (the step within a core's half of the batch) is zero. -/
abbrev cond0_0 (i : grid0.Coords) : Prop := (Scalar.cmpi .ne (Scalar.extui (Scalar.cmpi .eq (BitVec.ofNat 32 (i 1).val) 0#32)) 0#32) = 1#1
/-- It holds at the points ≡ 0 (mod 32): the first step of each of the two cores. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs -/

/-- One staging buffer of each output window, through which its contents are stated. -/
abbrev VO0_2 : View sig .tc .vmem S1x1000x1 .f32 := (Memref.whole cc0_stg2_0 : Memref sig .tc .vmem S1x1000x1 .f32).view
abbrev VO0_3 : View sig .tc .vmem S1x1000x512 .f32 := (Memref.whole cc0_stg3_0 : Memref sig .tc .vmem S1x1000x512 .f32).view
abbrev VO0_4 : View sig .tc .vmem S1x1000x512 .f32 := (Memref.whole cc0_stg4_0 : Memref sig .tc .vmem S1x1000x512 .f32).view
/-- Each window's current staging memref at point `t`, as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1000x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1000x512 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KI.RunReset.lean ====
/-
  The kernel body at the first step of a core's half of the batch (the branch taken): the three accumulators
  are stored whole with zeros before anything reads them, so they may hold anything on entry; then each is read
  back, the tile's contribution added, and stored again. What the stores leave in each accumulator's staging
  buffer is found as a list of pieces by running the body.
-/
import proofs.«419888_j24352464569636_3_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs, the inputs' at their contents, the three accumulators' at anything: it runs
    to the continuation holding the inputs' as they were and each accumulator's buffer with its pieces written. -/
noncomputable def kernelRun0_A (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) :
    Σ' (L2 : List (View.Piece (Elt F) S1x1000x1 .f32)) (L3 : List (View.Piece (Elt F) S1x1000x512 .f32)), { L4 : List (View.Piece (Elt F) S1x1000x512 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
              ∗ (∃ f, arg4.view.loc (c : Thread nD τ) ↦[arg4.view.set]{fullShare} arg4.view.writes (Elt F) f L2)
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Fr

end
-- ==== Proof.KI.RunAcc.lean ====
/-
  The kernel body at every later step of a core's half of the batch (the branch not taken): each accumulator
  is read before it is stored, so its staging buffer must hold what the step before left (`xo2`, `xo3`, `xo4`);
  the tile's contribution is added and the sum stored whole.
-/
import proofs.«419888_j24352464569636_3_alg».proof.Proof.KI.RunReset

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs, the inputs' at their contents, the three accumulators' at their running
    contents: it runs to the continuation holding the inputs' as they were and each accumulator's buffer with
    its pieces written. -/
noncomputable def kernelRun0_B (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) :
    Σ' (L2 : List (View.Piece (Elt F) S1x1000x1 .f32)) (L3 : List (View.Piece (Elt F) S1x1000x512 .f32)), { L4 : List (View.Piece (Elt F) S1x1000x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
              ∗ (∃ f, arg4.view.loc (c : Thread nD τ) ↦[arg4.view.set]{fullShare} arg4.view.writes (Elt F) f L2)
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Fr

end
-- ==== Proof.KI.FrameData.lean ====
/-
  What each control case of the body leaves in the three accumulators' staging buffers (its stores tile each
  buffer, so the buffer's contents are the stores read back), what the accumulators hold after each grid point
  (a recursion on the point: the reset case starts a core's half of the batch afresh, every later step adds to
  what the step before left, the buffers not being written back in between), and the pipeline's proof data.
-/
import proofs.«419888_j24352464569636_3_alg».proof.Proof.KI.RunAcc

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case's stores into accumulator 2 tile its buffer. -/
theorem coverA_2 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) (y : S1x1000x1.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x1000x1.size (by sl_kernel_rfl) y

/-- What the reset case leaves in accumulator 2: its stores read back. -/
def outA_2 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) : Vec F S1x1000x1 .f32 :=
  VO0_2.read (Elt F) (VO0_2.writes (Elt F) VO0_2.junk (kernelRun0_A c i arg2 harg2 arg3 harg3 arg4 harg4 arg5 harg5 arg6 harg6 hc0 x0 x1).1)

/-- The accumulating case's stores into accumulator 2 tile its buffer. -/
theorem coverB_2 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) (y : S1x1000x1.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x1000x1.size (by sl_kernel_rfl) y

/-- What the accumulating case leaves in accumulator 2: its stores read back. -/
def outB_2 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) : Vec F S1x1000x1 .f32 :=
  VO0_2.read (Elt F) (VO0_2.writes (Elt F) VO0_2.junk (kernelRun0_B c i arg2 harg2 arg3 harg3 arg4 harg4 arg5 harg5 arg6 harg6 hc0 x0 x1 xo2 xo3 xo4).1)

/-- The reset case's stores into accumulator 3 tile its buffer. -/
theorem coverA_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) (y : S1x1000x512.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x1000x512.size (by sl_kernel_rfl) y

/-- What the reset case leaves in accumulator 3: its stores read back. -/
def outA_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) : Vec F S1x1000x512 .f32 :=
  VO0_3.read (Elt F) (VO0_3.writes (Elt F) VO0_3.junk (kernelRun0_A c i arg2 harg2 arg3 harg3 arg4 harg4 arg5 harg5 arg6 harg6 hc0 x0 x1).2.1)

/-- The accumulating case's stores into accumulator 3 tile its buffer. -/
theorem coverB_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) (y : S1x1000x512.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x1000x512.size (by sl_kernel_rfl) y

/-- What the accumulating case leaves in accumulator 3: its stores read back. -/
def outB_3 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) : Vec F S1x1000x512 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- The reset case's stores into accumulator 4 tile its buffer. -/
theorem coverA_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) (y : S1x1000x512.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1000x512.size (by sl_kernel_rfl) y

/-- What the reset case leaves in accumulator 4: its stores read back. -/
def outA_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) : Vec F S1x1000x512 .f32 :=
  VO0_4.read (Elt F) (VO0_4.writes (Elt F) VO0_4.junk (kernelRun0_A c i arg2 harg2 arg3 harg3 arg4 harg4 arg5 harg5 arg6 harg6 hc0 x0 x1).2.2.1)

/-- The accumulating case's stores into accumulator 4 tile its buffer. -/
theorem coverB_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) (y : S1x1000x512.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x1000x512.size (by sl_kernel_rfl) y

/-- What the accumulating case leaves in accumulator 4: its stores read back. -/
def outB_4 (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) : Vec F S1x1000x512 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the accumulators hold after each point -/

/-- The three accumulators' contents, in window order. -/
abbrev Acc (F : FTy → Type) : Type := Vec F S1x1000x1 .f32 × Vec F S1x1000x512 .f32 × Vec F S1x1000x512 .f32

/-- After a point of the reset case: that case's contents, from the point's two input blocks alone. -/
def accA (c : Dev nD) (t : Fin cfg0.N) (h0 : t.val % 32 = 0) : Acc F :=
  (outA_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
   outA_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
   outA_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))

/-- After a point of the accumulating case: that case's contents, over what the point before left (`p`). -/
def accB (c : Dev nD) (t : Fin cfg0.N) (h0 : ¬t.val % 32 = 0) (p : Acc F) : Acc F :=
  (outB_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2,
   outB_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2,
   outB_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2)

/-- THE ACCUMULATION: what the three accumulators hold after the body at position `n`, by recursion on the position. -/
def outsAt0 (c : Dev nD) : (n : ℕ) → n < cfg0.N → Acc F
  | 0, hn => accA m c ⟨0, hn⟩ (Nat.zero_mod _)
  | n + 1, hn =>
    if h0 : (n + 1) % 32 = 0 then accA m c ⟨n + 1, hn⟩ h0
    else accB m c ⟨n + 1, hn⟩ h0 (outsAt0 c n (Nat.lt_of_succ_lt hn))

theorem outsAt0_A (c : Dev nD) (t : Fin cfg0.N) (h0 : t.val % 32 = 0) :
    outsAt0 m c t.val t.isLt = accA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = accB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the accumulators' at `outsAt0`; the invariant is the scoped rest and
    the generator register, which the body never reads; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point of the accumulating case accumulator 2's staging buffer holds what the body left at the point
    before: the point is not a core's first, and the buffer is written back only after a core's last point. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- At a point of the accumulating case accumulator 3's staging buffer holds what the body left at the point
    before: the point is not a core's first, and the buffer is written back only after a core's last point. -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- At a point of the accumulating case accumulator 4's staging buffer holds what the body left at the point
    before: the point is not a core's first, and the buffer is written back only after a core's last point. -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

end Cert.KernelIdeal.Fr

end
-- ==== Proof.KI.Frame.lean ====
/-
  The frame of the per-class reduction program: the body's obligation at a generic grid point (the closed form
  of the branch says which case the point is in; in the accumulating case each accumulator holds what the point
  before left), the run of @main with every staged array named, and the frame claim.
-/
import proofs.«419888_j24352464569636_3_alg».proof.Proof.KI.FrameData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' memrefs hold their blocks; the closed form of the branch says which case
    the point is in; in the accumulating case each accumulator holds what the point before left; so that case's
    run applies, and what it leaves is this point's `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 32 = 0
  · rw [outsAt0_A m c t h0]
    unfold accA outA_2 outA_3 outA_4
    have hc2 := coverA_2 (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
    have hc3 := coverA_3 (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
    have hc4 := coverA_4 (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
    generalize kernelRun0_A (F := F) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) = R at hc2 hc3 hc4 ⊢
    obtain ⟨L2, L3, L4, hrun⟩ := R
    dsimp only at hc2 hc3 hc4 ⊢
    iintro ⟨HΦ, Ho, ⟨%d0, H0⟩, ⟨%d1, H1⟩, ⟨%d2, H2⟩, ⟨%d3, H3⟩, ⟨%d4, H4⟩⟩
    iapply (hrun Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ hc2
    isplitl [H3]
    · unfold owns; iexists _; isplitr
      swap; · iexact H3
      ipureintro; exact View.read_writes_of_cover _ _ _ _ _ hc3
    unfold owns; iexists _; isplitr
    swap; · iexact H4
    ipureintro; exact View.read_writes_of_cover _ _ _ _ _ hc4
  · rw [outsAt0_B m c t h0]
    simp only [before0_2_B m c t h0, before0_3_B m c t h0, before0_4_B m c t h0]
    unfold accB outB_2 outB_3 outB_4
    generalize (outsAt0 m c (t.val - 1) (Nat.lt_of_le_of_lt (Nat.sub_le _ _) t.isLt)) = p
    have hc2 := coverB_2 (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2
    have hc3 := coverB_3 (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2
    have hc4 := coverB_4 (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2
    generalize kernelRun0_B (F := F) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2 = R at hc2 hc3 hc4 ⊢
    obtain ⟨L2, L3, L4, hrun⟩ := R
    dsimp only at hc2 hc3 hc4 ⊢
    iintro ⟨HΦ, Ho, ⟨%d0, H0⟩, ⟨%d1, H1⟩, ⟨%d2, H2⟩, ⟨%d3, H3⟩, ⟨%d4, H4⟩⟩
    iapply (hrun Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ hc2
    isplitl [H3]
    · unfold owns; iexists _; isplitr
      swap; · iexact H3
      ipureintro; exact View.read_writes_of_cover _ _ _ _ _ hc3
    unfold owns; iexists _; isplitr
    swap; · iexact H4
    ipureintro; exact View.read_writes_of_cover _ _ _ _ _ hc4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 4000000 in
/-- Every weakly fair execution of @main terminates, and every final state has every staged array at what the
    library computes from the proof data and every other unscoped buffer as the host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any instance of the float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.KI.Pieces.lean ====
/-
  What each control case leaves in each accumulator, as the body's arithmetic: the stores read back are the
  last store's value, a function of the tile's two input blocks and of what the accumulator held (at the
  first step of a core's half: of the zeros the reset has just stored, which the update reads back).
-/
import proofs.«419888_j24352464569636_3_alg».proof.Proof.KI.FrameData
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The accumulating case: accumulator 2 ends at its update of what it held. -/
theorem outB_2_eq (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) :
    outB_2 c i arg2 harg2 arg3 harg3 arg4 harg4 arg5 harg5 arg6 harg6 hc0 x0 x1 xo2 xo3 xo4 = k0_pay8 x1 xo2 := by
  unfold outB_2
  rw [View.read_writes_eq_canon _ _ _ (coverB_2 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1024x512) hz2, View.ld_unit_zero (S := S1024) hz1, View.ld_unit_zero (S := S1x1000x1) hz3,
    View.ld_unit_zero (S := S1x1000x512) hz3]

/-- The reset case: accumulator 2 ends at its update of the zeros just stored. -/
theorem outA_2_eq (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) :
    outA_2 c i arg2 harg2 arg3 harg3 arg4 harg4 arg5 harg5 arg6 harg6 hc0 x0 x1 = k0_pay8 x1 k0_pay2 := by
  unfold outA_2
  rw [View.read_writes_eq_canon _ _ _ (coverA_2 c i arg2 harg2 arg3 harg3 arg4 harg4 arg5 harg5 arg6 harg6 hc0 x0 x1)]
  unfold kernelRun0_A
  dsimp only
  sl_unfold_words
  rw [View.canon_cons_unit_zero (S := S1x1000x1) hz3, View.readCov_unit_zero (S := S1x1000x1) _ hz3]
  simp only [View.readAt_eq_ld, harg2.read_unread, harg3.read_unread, harg4.read_unread, harg5.read_unread, harg6.read_unread,
    View.ld_unit_zero (S := S1024x512) hz2, View.ld_unit_zero (S := S1024) hz1, View.ld_unit_zero (S := S1x1000x1) hz3,
    View.ld_unit_zero (S := S1x1000x512) hz3]

/-- The accumulating case: accumulator 3 ends at its update of what it held. -/
theorem outB_3_eq (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) :
    outB_3 c i arg2 harg2 arg3 harg3 arg4 harg4 arg5 harg5 arg6 harg6 hc0 x0 x1 xo2 xo3 xo4 = k0_pay9 x0 x1 xo3 := by
  unfold outB_3
  rw [View.read_writes_eq_canon _ _ _ (coverB_3 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1024x512) hz2, View.ld_unit_zero (S := S1024) hz1, View.ld_unit_zero (S := S1x1000x1) hz3,
    View.ld_unit_zero (S := S1x1000x512) hz3]

/-- The reset case: accumulator 3 ends at its update of the zeros just stored. -/
theorem outA_3_eq (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) :
    outA_3 c i arg2 harg2 arg3 harg3 arg4 harg4 arg5 harg5 arg6 harg6 hc0 x0 x1 = k0_pay9 x0 x1 k0_pay3 := by
  unfold outA_3
  rw [View.read_writes_eq_canon _ _ _ (coverA_3 c i arg2 harg2 arg3 harg3 arg4 harg4 arg5 harg5 arg6 harg6 hc0 x0 x1)]
  unfold kernelRun0_A
  dsimp only
  sl_unfold_words
  rw [View.canon_cons_unit_zero (S := S1x1000x512) hz3, View.readCov_unit_zero (S := S1x1000x512) _ hz3]
  simp only [View.readAt_eq_ld, harg2.read_unread, harg3.read_unread, harg4.read_unread, harg5.read_unread, harg6.read_unread,
    View.ld_unit_zero (S := S1024x512) hz2, View.ld_unit_zero (S := S1024) hz1, View.ld_unit_zero (S := S1x1000x1) hz3,
    View.ld_unit_zero (S := S1x1000x512) hz3]

/-- The accumulating case: accumulator 4 ends at its update of what it held. -/
theorem outB_4_eq (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : ¬cond0_0 i)
    (x0 : Vec F S1024x512 .f32) (x1 : Vec F S1024 .i32) (xo2 : Vec F S1x1000x1 .f32) (xo3 : Vec F S1x1000x512 .f32) (xo4 : Vec F S1x1000x512 .f32) :
    outB_4 c i arg2 harg2 arg3 harg3 arg4 harg4 arg5 harg5 arg6 harg6 hc0 x0 x1 xo2 xo3 xo4 = k0_pay1 (k0_pay7 x0 x1) xo4 := by
  unfold outB_4
  rw [View.read_writes_eq_canon _ _ _ (coverB_4 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1024x512) hz2, View.ld_unit_zero (S := S1024) hz1, View.ld_unit_zero (S := S1x1000x1) hz3,
    View.ld_unit_zero (S := S1x1000x512) hz3]

/-- The reset case: accumulator 4 ends at its update of the zeros just stored. -/
theorem outA_4_eq (c : Dev nD) (i : grid0.Coords) (arg2 : Memref sig .tc .vmem S1024x512 .f32) (harg2 : arg2.IsWhole) (arg3 : Memref sig .tc .vmem S1024 .i32) (harg3 : arg3.IsWhole) (arg4 : Memref sig .tc .vmem S1x1000x1 .f32) (harg4 : arg4.IsWhole) (arg5 : Memref sig .tc .vmem S1x1000x512 .f32) (harg5 : arg5.IsWhole) (arg6 : Memref sig .tc .vmem S1x1000x512 .f32) (harg6 : arg6.IsWhole) (hc0 : cond0_0 i)
    (x0 : Vec F S1024x512 .f32) (x1 : Vec F S1024 .i32) :
    outA_4 c i arg2 harg2 arg3 harg3 arg4 harg4 arg5 harg5 arg6 harg6 hc0 x0 x1 = k0_pay1 (k0_pay7 x0 x1) k0_pay4 := by
  unfold outA_4
  rw [View.read_writes_eq_canon _ _ _ (coverA_4 c i arg2 harg2 arg3 harg3 arg4 harg4 arg5 harg5 arg6 harg6 hc0 x0 x1)]
  unfold kernelRun0_A
  dsimp only
  sl_unfold_words
  rw [View.canon_cons_unit_zero (S := S1x1000x512) hz3, View.readCov_unit_zero (S := S1x1000x512) _ hz3]
  simp only [View.readAt_eq_ld, harg2.read_unread, harg3.read_unread, harg4.read_unread, harg5.read_unread, harg6.read_unread,
    View.ld_unit_zero (S := S1024x512) hz2, View.ld_unit_zero (S := S1024) hz1, View.ld_unit_zero (S := S1x1000x1) hz3,
    View.ld_unit_zero (S := S1x1000x512) hz3]

end Cert.KernelIdeal.Fr

end
-- ==== Proof.Spec.lean ====
/-
  The quantities the kernel and the reference both compute, stated once over literal shapes: for a class `c`
  the number of batch rows whose label is `c`, the sum of those rows of the features, and the sum of their
  squares, entry by entry along the feature axis. A row whose label is no class at all (negative, or 1000 and
  beyond) belongs to no class and contributes to nothing. The same three sums over one tile of 1024 rows are
  what one grid step of the kernel adds to its accumulators.
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx
open scoped BigOperators

/-- The batch of features, the labels, the per-class vectors and tables; one tile of 1024 rows of each input. -/
abbrev SX : Shape := ⟨2, ![65536, 512]⟩
abbrev SL : Shape := ⟨1, ![65536]⟩
abbrev SC : Shape := ⟨1, ![1000]⟩
abbrev SCA : Shape := ⟨2, ![1000, 512]⟩
abbrev SXt : Shape := ⟨2, ![1024, 512]⟩
abbrev SLt : Shape := ⟨1, ![1024]⟩

/-- The label word that names class `c`. -/
abbrev word (c : Fin 1000) : BitVec 32 := BitVec.ofNat 32 c.val

/-- Row `n` of the batch carries the label of class `c`. -/
def hit (lab : SL.Idx → BitVec 32) (n : Fin 65536) (c : Fin 1000) : Prop := lab (ix1 n) = word c

instance (lab : SL.Idx → BitVec 32) (n : Fin 65536) (c : Fin 1000) : Decidable (hit lab n c) := by
  unfold hit; infer_instance

/-- How many rows of the batch carry class `c`'s label. -/
def cnt (lab : SL.Idx → BitVec 32) (c : Fin 1000) : EReal :=
  ∑ n : Fin 65536, if hit lab n c then (1 : EReal) else 0

/-- The sum over class `c`'s rows of feature `a`. -/
def sums (x : SX.Idx → EReal) (lab : SL.Idx → BitVec 32) (c : Fin 1000) (a : Fin 512) : EReal :=
  ∑ n : Fin 65536, if hit lab n c then x (ix2 n a) else 0

/-- The sum over class `c`'s rows of the square of feature `a`. -/
def sumsq (x : SX.Idx → EReal) (lab : SL.Idx → BitVec 32) (c : Fin 1000) (a : Fin 512) : EReal :=
  ∑ n : Fin 65536, if hit lab n c then x (ix2 n a) * x (ix2 n a) else 0

/-- The sum over class `c`'s rows of the squared deviation of feature `a` from `μ`. -/
def devsq (x : SX.Idx → EReal) (lab : SL.Idx → BitVec 32) (μ : EReal) (c : Fin 1000) (a : Fin 512) : EReal :=
  ∑ n : Fin 65536, if hit lab n c then (x (ix2 n a) - μ) * (x (ix2 n a) - μ) else 0

/-! One tile of 1024 rows: what one grid step adds. The indicator is kept as a factor, which is how a product
    with a zero-or-one matrix reads. -/

/-- Row `k` of a tile carries class `c`'s label: one or zero. -/
def ind (lab : SLt.Idx → BitVec 32) (k : Fin 1024) (c : Fin 1000) : EReal :=
  if lab (ix1 k) = word c then 1 else 0

def tileCnt (lab : SLt.Idx → BitVec 32) (c : Fin 1000) : EReal := ∑ k : Fin 1024, ind lab k c

def tileSum (x : SXt.Idx → EReal) (lab : SLt.Idx → BitVec 32) (c : Fin 1000) (a : Fin 512) : EReal :=
  ∑ k : Fin 1024, ind lab k c * x (ix2 k a)

def tileSq (x : SXt.Idx → EReal) (lab : SLt.Idx → BitVec 32) (c : Fin 1000) (a : Fin 512) : EReal :=
  ∑ k : Fin 1024, ind lab k c * (x (ix2 k a) * x (ix2 k a))

/-- Tile `b` (of 64) of the labels and of the features: rows `1024 b` to `1024 b + 1023`. -/
def row (b : Fin 64) (k : Fin 1024) : Fin 65536 := ⟨1024 * b.val + k.val, by have := b.isLt; have := k.isLt; omega⟩
def labTile (lab : SL.Idx → BitVec 32) (b : Fin 64) : SLt.Idx → BitVec 32 := fun j => lab (ix1 (row b (j 0)))
def xTile (x : SX.Idx → EReal) (b : Fin 64) : SXt.Idx → EReal := fun j => x (ix2 (row b (j 0)) (j 1))

end Cert.Spec

end
-- ==== Proof.KI.Blocks.lean ====
/-
  Where each window's block sits in its array, decided once over the grid: point `t` (of 64) takes tile `t` of
  the features and of the labels (rows `1024 t` to `1024 t + 1023`), and the three accumulator windows' block is
  core `t / 32`'s slab. Hence the two input blocks at a point, read off the arrays as the region finds them, are
  tile `t` of the launch contents.
-/
import proofs.«419888_j24352464569636_3_alg».proof.Proof.KI.Shared
import proofs.«419888_j24352464569636_3_alg».proof.Proof.Spec
import Idealize.ShloMosaic.Lib.Pipeline.Value

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

theorem idx1 : ∀ t : Fin cfg0.N, win0_1.index t (0 : Fin 1) = t.val :=
  (by decide +kernel : ∀ t : Fin grid0.N, win0_1.index t (0 : Fin 1) = t.val)
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)
theorem idx4 : ∀ t : Fin cfg0.N, win0_4.index t (0 : Fin 3) = t.val / 32 ∧ win0_4.index t (1 : Fin 3) = 0 ∧ win0_4.index t (2 : Fin 3) = 0 :=
  (by decide +kernel : ∀ t : Fin grid0.N, win0_4.index t (0 : Fin 3) = t.val / 32 ∧ win0_4.index t (1 : Fin 3) = 0 ∧ win0_4.index t (2 : Fin 3) = 0)
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)

/-- The tile a grid point works on: point `t` takes tile `t`. -/
def tileOf (t : Fin cfg0.N) : Fin 64 := ⟨t.val, lt_of_lt_of_eq t.isLt N_0⟩

theorem iblk1_eq (c : Dev nD) (t : Fin cfg0.N) :
    (iblk m c 1 t : S1024.Idx → BitVec 32) = labTile (m ((c : Thread nD τ).loc main_arg1)) (tileOf t) := by
  funext y
  unfold iblk labTile
  rw [View.read_apply]
  show V m c main_arg1 (((cfg0.win 1).blk t).view.emb y) = V m c main_arg1 (ix1 (row (tileOf t) (y 0)))
  refine congrArg (V m c main_arg1) ?_
  funext a
  match a with
  | ⟨0, _⟩ =>
    apply Fin.ext
    show win0_1.index t 0 * 1024 + 1 * (y 0).val = 1024 * t.val + (y 0).val
    rw [idx1 t]; omega

theorem iblk0_eq (c : Dev nD) (t : Fin cfg0.N) :
    (iblk m c 0 t : S1024x512.Idx → EReal) = xTile (m ((c : Thread nD τ).loc main_arg0)) (tileOf t) := by
  funext y
  unfold iblk xTile
  rw [View.read_apply]
  show V m c main_arg0 (((cfg0.win 0).blk t).view.emb y) = V m c main_arg0 (ix2 (row (tileOf t) (y 0)) (y 1))
  refine congrArg (V m c main_arg0) ?_
  funext a
  match a with
  | ⟨0, _⟩ =>
    apply Fin.ext
    show win0_0.index t 0 * 1024 + 1 * (y 0).val = 1024 * t.val + (y 0).val
    rw [(idx0 t).1]; omega
  | ⟨1, _⟩ =>
    apply Fin.ext
    show win0_0.index t 1 * 512 + 1 * (y 1).val = (y 1).val
    rw [(idx0 t).2]; omega
end Cert.KernelIdeal.Val
end
-- ==== Proof.KI.PointLayout.lean ====
/-
  One grid step of the kernel, read entry by entry over the extended reals: the pieces. The step builds, from the
  1024 labels of its tile, the zero-or-one matrix whose entry at class `c` and row `k` says whether row `k` carries
  `c`'s label, sums it along the rows for the counts, and multiplies it with the tile of features (and with their
  squares) for the two tables of sums. Here each operation of that chain that is not pointwise is read at explicit
  coordinates: the casts between a vector and a one-column matrix, the class counter, the comparison's bit as an
  extended real, the sum along the lanes as a finite sum over the 1024 rows, and the matrix product into a zero
  accumulator as the finite sum over the contracted axis. The last lemmas say that the matrix so built is the
  indicator `Spec.ind` of the tile's labels, before and after the change of format (which changes nothing here).
-/
import proofs.«419888_j24352464569636_3_alg».proof.Proof.Gen.KernelIdeal.Skeleton
import proofs.«419888_j24352464569636_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PV

open Idealize.ShloMosaic Idealize.ShloMosaic.ValueIdx
open Cert.KernelIdeal Cert.KernelIdeal.Gen Cert.Spec
open scoped BigOperators

/-! ## Pieces: one small lemma per operation that is not pointwise, each read at explicit coordinates -/

/-- A vector cast to a one-column matrix reads, at row `i`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The bit of a comparison for equality of two words, widened to a word and read as a signed integer, is
    the extended real one where the words agree and zero where they do not. -/
theorem onehot_word (x y : BitVec 32) :
    (FloatOps.sitofp (F := Ideal) .f32 ((IntOp.cmpi .eq x y).setWidth 32) : EReal) = if y = x then 1 else 0 := by
  show (((((IntOp.cmpi .eq x y).setWidth 32).toInt : ℤ) : ℝ) : EReal) = _
  by_cases h : y = x
  · subst h
    rw [if_pos rfl]
    simp [IntOp.cmpi]
  · rw [if_neg h]
    have hb : (x == y) = false := beq_eq_false_iff_ne.mpr fun e => h e.symm
    simp [IntOp.cmpi, hb]

/-- The class counter along the rows: at `(c, k)` it is the word of `c`. -/
theorem iota0_apply (h : S1000x1024.Iotas .tc 32 [0]) (c : Fin 1000) (k : Fin 1024) :
    iota .tc S1000x1024 32 [0] h (ix2 c k) = BitVec.ofNat 32 c.val :=
  iota_single_apply .tc S1000x1024 32 0 h (ix2 c k)

/-- The sum along the lanes of a `[1000, 1024]` array, at class `c`, is the sum over the 1024 lanes of row `c`. -/
theorem laneSum_apply (src : FVec Ideal S1000x1024 .f32) (h : S1000x1024.Reduces [1] S1000)
    (hφ : FKind.Formats .f32) (hacc : (0x00000000#32 : BitVec 32) = FKind.add.neutral .f32 hφ) (c : Fin 1000) :
    multiReduction .add [1] S1000 src 0x00000000#32 h hφ hacc (ix1 c) = ∑ k : Fin 1024, src (ix2 c k) := by
  refine (Ideal.multiReduction_add_single src 0x00000000#32 h hφ hacc (ix1 c)).trans ?_
  refine Finset.sum_congr rfl fun k _ => congrArg src ?_
  funext a
  match a with
  | ⟨0, _⟩ => rfl
  | ⟨1, _⟩ => rfl

/-! The matrix product's operand indices at output `(c, a)` and contraction coordinate `k`: the left operand is read at
    `(c, k)`, the right one at `(k, a)`. One lemma per operand axis. -/

theorem lhs_0 (i : S1000x512.Idx) (q : dot_S1000x1024_S1024x512_S1000x512_1_0_0_1_n_n.contr.Idx) :
    (dot_S1000x1024_S1024x512_S1000x512_1_0_0_1_n_n.lhsIdx i q 0).val = (i 0).val := by
  unfold DotDims.lhsIdx
  rw [dif_neg (show ¬(0 : Fin S1000x1024.rank) ∈ dot_S1000x1024_S1024x512_S1000x512_1_0_0_1_n_n.lhsBatch by decide),
    dif_pos (show (0 : Fin S1000x1024.rank) ∈ dot_S1000x1024_S1024x512_S1000x512_1_0_0_1_n_n.lhsNonContracting by decide)]
  rfl

theorem lhs_1 (i : S1000x512.Idx) (q : dot_S1000x1024_S1024x512_S1000x512_1_0_0_1_n_n.contr.Idx) :
    (dot_S1000x1024_S1024x512_S1000x512_1_0_0_1_n_n.lhsIdx i q 1).val = (q ⟨0, by decide⟩).val :=
  dot_S1000x1024_S1024x512_S1000x512_1_0_0_1_n_n.lhsIdx_val_of_single rfl i q

theorem rhs_0 (i : S1000x512.Idx) (q : dot_S1000x1024_S1024x512_S1000x512_1_0_0_1_n_n.contr.Idx) :
    (dot_S1000x1024_S1024x512_S1000x512_1_0_0_1_n_n.rhsIdx i q 0).val = (q ⟨0, by decide⟩).val :=
  dot_S1000x1024_S1024x512_S1000x512_1_0_0_1_n_n.rhsIdx_val_of_single rfl i q

theorem rhs_1 (i : S1000x512.Idx) (q : dot_S1000x1024_S1024x512_S1000x512_1_0_0_1_n_n.contr.Idx) :
    (dot_S1000x1024_S1024x512_S1000x512_1_0_0_1_n_n.rhsIdx i q 1).val = (i 1).val := by
  unfold DotDims.rhsIdx
  rw [dif_neg (show ¬(1 : Fin S1024x512.rank) ∈ dot_S1000x1024_S1024x512_S1000x512_1_0_0_1_n_n.rhsBatch by decide),
    dif_pos (show (1 : Fin S1024x512.rank) ∈ dot_S1000x1024_S1024x512_S1000x512_1_0_0_1_n_n.rhsNonContracting by decide)]
  rfl

/-- The matrix product into the zero accumulator, at `(c, a)`: the sum over the 1024 rows `k` of the tile of the left
    operand at `(c, k)` times the right operand at `(k, a)`. -/
theorem matmul0_apply (lhs : FVec Ideal S1000x1024 .bf16) (rhs : FVec Ideal S1024x512 .bf16) (c : Fin 1000) (a : Fin 512) :
    matmul dot_S1000x1024_S1024x512_S1000x512_1_0_0_1_n_n none lhs rhs (constant (F := Ideal) S1000x512 .f32 0x00000000#32) (ix2 c a)
      = ∑ k : Fin 1024, lhs (ix2 c k) * rhs (ix2 k a) := by
  simp only [matmul]
  rw [Ideal.matmul_constant_zero_apply,
    ← Equiv.sum_comp (contrEquiv1 dot_S1000x1024_S1024x512_S1000x512_1_0_0_1_n_n 1024 rfl rfl).symm]
  refine Finset.sum_congr rfl fun k _ => ?_
  have hk := contrEquiv1_symm_val dot_S1000x1024_S1024x512_S1000x512_1_0_0_1_n_n 1024 rfl rfl k
  have el : dot_S1000x1024_S1024x512_S1000x512_1_0_0_1_n_n.lhsIdx (ix2 c a)
      ((contrEquiv1 dot_S1000x1024_S1024x512_S1000x512_1_0_0_1_n_n 1024 rfl rfl).symm k) = ix2 c k :=
    funext fun ax => Fin.ext (by
      match ax with
      | ⟨0, _⟩ => exact lhs_0 _ _
      | ⟨1, _⟩ => exact (lhs_1 _ _).trans hk)
  have er : dot_S1000x1024_S1024x512_S1000x512_1_0_0_1_n_n.rhsIdx (ix2 c a)
      ((contrEquiv1 dot_S1000x1024_S1024x512_S1000x512_1_0_0_1_n_n 1024 rfl rfl).symm k) = ix2 k a :=
    funext fun ax => Fin.ext (by
      match ax with
      | ⟨0, _⟩ => exact (rhs_0 _ _).trans hk
      | ⟨1, _⟩ => exact rhs_1 _ _)
  rw [el, er]

/-- The zero-or-one matrix the kernel builds: at `(c, k)` it is one where row `k` of the tile carries class `c`'s
    label and zero elsewhere. -/
theorem pay5_apply (v4 : Vec Ideal S1024 .i32) (c : Fin 1000) (k : Fin 1024) :
    k0_pay5 (F := Ideal) v4 (ix2 c k) = ind v4 k c := by
  unfold k0_pay5
  show FloatOps.sitofp (F := Ideal) .f32 ((IntOp.cmpi .eq (iota .tc S1000x1024 32 [0] iota_S1000x1024_d0_w32 (ix2 c k))
    (broadcastTo S1000x1024 (shapeCast S1x1024 v4 shapeCasts_S1024_S1x1024) broadcasts_S1x1024_S1000x1024 (ix2 c k))).setWidth 32) = _
  rw [iota0_apply, broadcastTo_1b_ab_apply, shapeCast_a_1a_apply, onehot_word]
  rfl

/-- The same matrix after the change of format, which at the extended reals changes nothing. -/
theorem pay6_apply (v4 : Vec Ideal S1024 .i32) (c : Fin 1000) (k : Fin 1024) :
    k0_pay6 (F := Ideal) v4 (ix2 c k) = ind v4 k c :=
  pay5_apply v4 c k

end Cert.KernelIdeal.PV

end
-- ==== Proof.KI.PointValue.lean ====
/-
  One grid step of the kernel, read entry by entry over the extended reals: what each store writes. At the first step
  of a core's range the three accumulators are set to zero. At every step the counts grow, class by class, by the
  number of rows of the tile that carry the class's label; the sums grow, class by class and feature by feature, by the
  sum of that feature over those rows; and the sums of squares by the sum of its square over those rows. These are the
  three tile quantities `Spec.tileCnt`, `Spec.tileSum` and `Spec.tileSq`.
-/
import proofs.«419888_j24352464569636_3_alg».proof.Proof.KI.PointLayout
import proofs.«419888_j24352464569636_3_alg».proof.Proof.Gen.KernelIdeal.Skeleton
import proofs.«419888_j24352464569636_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PV

open Idealize.ShloMosaic Idealize.ShloMosaic.ValueIdx
open Cert.KernelIdeal Cert.KernelIdeal.Gen Cert.Spec
open scoped BigOperators

/-! ## The payloads at an index -/

/-- The counts' reset value is zero everywhere. -/
theorem pay2_apply (j : S1x1000x1.Idx) : k0_pay2 (F := Ideal) j = 0 := by
  obtain ⟨u, c, w, rfl⟩ : ∃ (u : Fin 1) (c : Fin 1000) (w : Fin 1), j = ix3 u c w := ⟨j 0, j 1, j 2, eq_ix3 j⟩
  unfold k0_pay2
  refine (shapeCast_ab_1ab_apply _ _ u c w).trans ?_
  exact Ideal.ofBits_zero_f32

/-- The sums' reset value is zero everywhere. -/
theorem pay3_apply (j : S1x1000x512.Idx) : k0_pay3 (F := Ideal) j = 0 := by
  obtain ⟨u, c, a, rfl⟩ : ∃ (u : Fin 1) (c : Fin 1000) (a : Fin 512), j = ix3 u c a := ⟨j 0, j 1, j 2, eq_ix3 j⟩
  unfold k0_pay3
  refine (shapeCast_ab_1ab_apply _ _ u c a).trans ?_
  exact Ideal.ofBits_zero_f32

/-- The sums of squares' reset value is zero everywhere. -/
theorem pay4_apply (j : S1x1000x512.Idx) : k0_pay4 (F := Ideal) j = 0 := by
  obtain ⟨u, c, a, rfl⟩ : ∃ (u : Fin 1) (c : Fin 1000) (a : Fin 512), j = ix3 u c a := ⟨j 0, j 1, j 2, eq_ix3 j⟩
  unfold k0_pay4
  refine (shapeCast_ab_1ab_apply _ _ u c a).trans ?_
  exact Ideal.ofBits_zero_f32

/-- One grid step adds to class `c`'s count the number of rows of the tile that carry `c`'s label. -/
theorem pay8_apply (v4 : Vec Ideal S1024 .i32) (v20 : Vec Ideal S1x1000x1 .f32) (c : Fin 1000) :
    k0_pay8 (F := Ideal) v4 v20 (ix3 (0 : Fin 1) c (0 : Fin 1))
      = v20 (ix3 (0 : Fin 1) c (0 : Fin 1)) + tileCnt v4 c := by
  unfold k0_pay8
  refine (shapeCast_ab_1ab_apply _ _ (0 : Fin 1) c (0 : Fin 1)).trans ?_
  refine (addf_apply _ _ (ix2 c (0 : Fin 1))).trans ?_
  refine congrArg₂ (· + ·) (shapeCast_1ab_ab_apply v20 _ c (0 : Fin 1)) ?_
  refine (shapeCast_a_a1_apply _ _ c (0 : Fin 1)).trans ?_
  refine (laneSum_apply _ _ _ _ c).trans ?_
  exact Finset.sum_congr rfl fun k _ => pay5_apply v4 c k

/-- One grid step adds to class `c`'s sum of feature `a` the tile's rows that carry `c`'s label. -/
theorem pay9_apply (v3 : Vec Ideal S1024x512 .f32) (v4 : Vec Ideal S1024 .i32) (v26 : Vec Ideal S1x1000x512 .f32)
    (c : Fin 1000) (a : Fin 512) :
    k0_pay9 (F := Ideal) v3 v4 v26 (ix3 (0 : Fin 1) c a) = v26 (ix3 (0 : Fin 1) c a) + tileSum v3 v4 c a := by
  unfold k0_pay9
  refine (shapeCast_ab_1ab_apply _ _ (0 : Fin 1) c a).trans ?_
  refine (addf_apply _ _ (ix2 c a)).trans ?_
  refine congrArg₂ (· + ·) (shapeCast_1ab_ab_apply v26 _ c a) ?_
  refine (matmul0_apply _ _ c a).trans ?_
  exact Finset.sum_congr rfl fun k _ => congrArg₂ (· * ·) (pay6_apply v4 c k) rfl

/-- One grid step adds to class `c`'s sum of squares of feature `a` the squares of the tile's rows that carry `c`'s
    label. -/
theorem pay1_apply (v3 : Vec Ideal S1024x512 .f32) (v4 : Vec Ideal S1024 .i32) (v32 : Vec Ideal S1x1000x512 .f32)
    (c : Fin 1000) (a : Fin 512) :
    k0_pay1 (F := Ideal) (k0_pay7 v3 v4) v32 (ix3 (0 : Fin 1) c a) = v32 (ix3 (0 : Fin 1) c a) + tileSq v3 v4 c a := by
  unfold k0_pay1
  refine (shapeCast_ab_1ab_apply _ _ (0 : Fin 1) c a).trans ?_
  refine (addf_apply _ _ (ix2 c a)).trans ?_
  refine congrArg₂ (· + ·) (shapeCast_1ab_ab_apply v32 _ c a) ?_
  unfold k0_pay7
  refine (matmul0_apply _ _ c a).trans ?_
  exact Finset.sum_congr rfl fun k _ => congrArg₂ (· * ·) (pay6_apply v4 c k) rfl

end Cert.KernelIdeal.PV

end
-- ==== Proof.SpecAcc.lean ====
/-
  What the kernel's three accumulator arrays end holding, stated once over literal shapes. The batch is cut in
  64 tiles of 1024 rows; core `q` (of two) takes tiles `32 q` to `32 q + 31`, one per grid step, and its slab of
  each array ends at the sum of its 32 tiles' contributions. A tile's contribution is given for a tile NUMBER
  (a natural number; zero beyond the 64 tiles) so that running sums over `Finset.range` can be stated.
-/
import proofs.«419888_j24352464569636_3_alg».proof.Proof.Spec

noncomputable section

namespace Cert.Spec

open Idealize.ShloMosaic Idealize.ShloMosaic.ValueIdx
open scoped BigOperators

/-- The two cores' slabs of the count and of the sum arrays. -/
abbrev SC2 : Shape := ⟨3, ![2, 1000, 1]⟩
abbrev SCA2 : Shape := ⟨3, ![2, 1000, 512]⟩

/-- Tile `b`'s contribution to class `c`'s count, to its sum of feature `a`, and to its sum of squares. -/
def pc (lab : SL.Idx → BitVec 32) (c : Fin 1000) (b : ℕ) : EReal :=
  if h : b < 64 then tileCnt (labTile lab ⟨b, h⟩) c else 0
def ps (x : SX.Idx → EReal) (lab : SL.Idx → BitVec 32) (c : Fin 1000) (a : Fin 512) (b : ℕ) : EReal :=
  if h : b < 64 then tileSum (xTile x ⟨b, h⟩) (labTile lab ⟨b, h⟩) c a else 0
def pq (x : SX.Idx → EReal) (lab : SL.Idx → BitVec 32) (c : Fin 1000) (a : Fin 512) (b : ℕ) : EReal :=
  if h : b < 64 then tileSq (xTile x ⟨b, h⟩) (labTile lab ⟨b, h⟩) c a else 0

/-- Core `q`'s slab after its 32 steps. -/
def slabCnt (lab : SL.Idx → BitVec 32) : SC2.Idx → EReal :=
  fun j => ∑ i ∈ Finset.range 32, pc lab (j 1) (32 * (j 0).val + i)
def slabSum (x : SX.Idx → EReal) (lab : SL.Idx → BitVec 32) : SCA2.Idx → EReal :=
  fun j => ∑ i ∈ Finset.range 32, ps x lab (j 1) (j 2) (32 * (j 0).val + i)
def slabSq (x : SX.Idx → EReal) (lab : SL.Idx → BitVec 32) : SCA2.Idx → EReal :=
  fun j => ∑ i ∈ Finset.range 32, pq x lab (j 1) (j 2) (32 * (j 0).val + i)

end Cert.Spec

end
-- ==== Proof.KI.Accum.lean ====
/-
  The running sums. After grid point `n` the three accumulators hold, for every class (and feature), the sum
  of the contributions of the tiles the current core has met so far: tiles `32 (n / 32)` to `n`. By induction on
  the point: at a core's first step the reset case leaves the tile's contribution alone (zero plus it); at
  every later step the accumulating case adds the tile's contribution to what the step before left.
-/
import proofs.«419888_j24352464569636_3_alg».proof.Proof.KI.Pieces
import proofs.«419888_j24352464569636_3_alg».proof.Proof.KI.Blocks
import proofs.«419888_j24352464569636_3_alg».proof.Proof.KI.PointValue
import proofs.«419888_j24352464569636_3_alg».proof.Proof.SpecAcc

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- The labels and the features as launched, on core `c`. -/
abbrev labOf (c : Dev nD) : SL.Idx → BitVec 32 := m ((c : Thread nD τ).loc main_arg1)
abbrev xOf (c : Dev nD) : SX.Idx → EReal := m ((c : Thread nD τ).loc main_arg0)

/-! ## One step -/

theorem accA_1 (c : Dev nD) (t : Fin cfg0.N) (h0 : t.val % 32 = 0) :
    (accA m c t h0).1 = k0_pay8 (F := Ideal) (iblk m c 1 t) (k0_pay2 (F := Ideal)) := by
  unfold accA
  dsimp only
  exact outA_2_eq c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
theorem accA_2 (c : Dev nD) (t : Fin cfg0.N) (h0 : t.val % 32 = 0) :
    (accA m c t h0).2.1 = k0_pay9 (F := Ideal) (iblk m c 0 t) (iblk m c 1 t) (k0_pay3 (F := Ideal)) := by
  unfold accA
  dsimp only
  exact outA_3_eq c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
theorem accA_3 (c : Dev nD) (t : Fin cfg0.N) (h0 : t.val % 32 = 0) :
    (accA m c t h0).2.2 = k0_pay1 (F := Ideal) (k0_pay7 (iblk m c 0 t) (iblk m c 1 t)) (k0_pay4 (F := Ideal)) := by
  unfold accA
  dsimp only
  exact outA_4_eq c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)
theorem accB_1 (c : Dev nD) (t : Fin cfg0.N) (h0 : ¬t.val % 32 = 0) (p : Acc Ideal) :
    (accB m c t h0 p).1 = k0_pay8 (F := Ideal) (iblk m c 1 t) p.1 := by
  unfold accB
  dsimp only
  exact outB_2_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2
theorem accB_2 (c : Dev nD) (t : Fin cfg0.N) (h0 : ¬t.val % 32 = 0) (p : Acc Ideal) :
    (accB m c t h0 p).2.1 = k0_pay9 (F := Ideal) (iblk m c 0 t) (iblk m c 1 t) p.2.1 := by
  unfold accB
  dsimp only
  exact outB_3_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2
theorem accB_3 (c : Dev nD) (t : Fin cfg0.N) (h0 : ¬t.val % 32 = 0) (p : Acc Ideal) :
    (accB m c t h0 p).2.2 = k0_pay1 (F := Ideal) (k0_pay7 (iblk m c 0 t) (iblk m c 1 t)) p.2.2 := by
  unfold accB
  dsimp only
  exact outB_4_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) p.1 p.2.1 p.2.2

/-- Tile `t`'s contributions, in the form the running sums are stated over. -/
theorem pc_tile (c : Dev nD) (t : Fin cfg0.N) (cls : Fin 1000) :
    tileCnt (iblk m c 1 t) cls = pc (labOf m c) cls t.val := by
  unfold pc; rw [dif_pos (show t.val < 64 from (tileOf t).isLt)]
  exact congrArg (fun l => tileCnt l cls) (iblk1_eq m c t)
theorem ps_tile (c : Dev nD) (t : Fin cfg0.N) (cls : Fin 1000) (a : Fin 512) :
    tileSum (iblk m c 0 t) (iblk m c 1 t) cls a = ps (xOf m c) (labOf m c) cls a t.val := by
  unfold ps; rw [dif_pos (show t.val < 64 from (tileOf t).isLt)]
  exact (congrArg (fun l => tileSum (iblk m c 0 t) l cls a) (iblk1_eq m c t)).trans
    (congrArg (fun v => tileSum v (labTile (labOf m c) (tileOf t)) cls a) (iblk0_eq m c t))
theorem pq_tile (c : Dev nD) (t : Fin cfg0.N) (cls : Fin 1000) (a : Fin 512) :
    tileSq (iblk m c 0 t) (iblk m c 1 t) cls a = pq (xOf m c) (labOf m c) cls a t.val := by
  unfold pq; rw [dif_pos (show t.val < 64 from (tileOf t).isLt)]
  exact (congrArg (fun l => tileSq (iblk m c 0 t) l cls a) (iblk1_eq m c t)).trans
    (congrArg (fun v => tileSq v (labTile (labOf m c) (tileOf t)) cls a) (iblk0_eq m c t))

/-! ## Sums over the tiles a core has met -/

theorem range_reset (f : ℕ → EReal) (n : ℕ) (h : n % 32 = 0) :
    ∑ i ∈ Finset.range (n % 32 + 1), f (32 * (n / 32) + i) = f n := by
  rw [h, Finset.sum_range_one]
  congr 1; omega

theorem range_step (f : ℕ → EReal) (n : ℕ) (h : ¬(n + 1) % 32 = 0) :
    ∑ i ∈ Finset.range ((n + 1) % 32 + 1), f (32 * ((n + 1) / 32) + i)
      = (∑ i ∈ Finset.range (n % 32 + 1), f (32 * (n / 32) + i)) + f (n + 1) := by
  have h1 : (n + 1) % 32 = n % 32 + 1 := by omega
  have h2 : (n + 1) / 32 = n / 32 := by omega
  rw [h1, h2, Finset.sum_range_succ]
  congr 2; omega

/-! ## The induction -/

/-- What the three accumulators hold after point `n`. -/
def Running (c : Dev nD) (n : ℕ) (p : Acc Ideal) : Prop :=
  (∀ cls : Fin 1000, p.1 (ix3 (0 : Fin 1) cls (0 : Fin 1)) = ∑ i ∈ Finset.range (n % 32 + 1), pc (labOf m c) cls (32 * (n / 32) + i))
  ∧ (∀ (cls : Fin 1000) (a : Fin 512), p.2.1 (ix3 (0 : Fin 1) cls a) = ∑ i ∈ Finset.range (n % 32 + 1), ps (xOf m c) (labOf m c) cls a (32 * (n / 32) + i))
  ∧ (∀ (cls : Fin 1000) (a : Fin 512), p.2.2 (ix3 (0 : Fin 1) cls a) = ∑ i ∈ Finset.range (n % 32 + 1), pq (xOf m c) (labOf m c) cls a (32 * (n / 32) + i))

theorem running_reset (c : Dev nD) (t : Fin cfg0.N) (h0 : t.val % 32 = 0) : Running m c t.val (accA m c t h0) := by
  refine ⟨fun cls => ?_, fun cls a => ?_, fun cls a => ?_⟩
  · rw [range_reset _ _ h0, accA_1]
    refine (PV.pay8_apply (iblk m c 1 t) (k0_pay2 (F := Ideal)) cls).trans ?_
    rw [PV.pay2_apply, zero_add]; exact pc_tile m c t cls
  · rw [range_reset _ _ h0, accA_2]
    refine (PV.pay9_apply (iblk m c 0 t) (iblk m c 1 t) (k0_pay3 (F := Ideal)) cls a).trans ?_
    rw [PV.pay3_apply, zero_add]; exact ps_tile m c t cls a
  · rw [range_reset _ _ h0, accA_3]
    refine (PV.pay1_apply (iblk m c 0 t) (iblk m c 1 t) (k0_pay4 (F := Ideal)) cls a).trans ?_
    rw [PV.pay4_apply, zero_add]; exact pq_tile m c t cls a

theorem running_step (c : Dev nD) (n : ℕ) (hn : n + 1 < cfg0.N) (h0 : ¬(n + 1) % 32 = 0) (p : Acc Ideal)
    (hp : Running m c n p) : Running m c (n + 1) (accB m c ⟨n + 1, hn⟩ h0 p) := by
  obtain ⟨h1, h2, h3⟩ := hp
  refine ⟨fun cls => ?_, fun cls a => ?_, fun cls a => ?_⟩
  · rw [range_step _ _ h0, accB_1]
    refine (PV.pay8_apply (iblk m c 1 ⟨n + 1, hn⟩) p.1 cls).trans ?_
    rw [h1 cls]; exact congrArg _ (pc_tile m c ⟨n + 1, hn⟩ cls)
  · rw [range_step _ _ h0, accB_2]
    refine (PV.pay9_apply (iblk m c 0 ⟨n + 1, hn⟩) (iblk m c 1 ⟨n + 1, hn⟩) p.2.1 cls a).trans ?_
    rw [h2 cls a]; exact congrArg _ (ps_tile m c ⟨n + 1, hn⟩ cls a)
  · rw [range_step _ _ h0, accB_3]
    refine (PV.pay1_apply (iblk m c 0 ⟨n + 1, hn⟩) (iblk m c 1 ⟨n + 1, hn⟩) p.2.2 cls a).trans ?_
    rw [h3 cls a]; exact congrArg _ (pq_tile m c ⟨n + 1, hn⟩ cls a)

/-- After every point the accumulators hold the running sums of the current core's tiles. -/
theorem running (c : Dev nD) : ∀ (n : ℕ) (hn : n < cfg0.N), Running m c n (outsAt0 m c n hn)
  | 0, hn => by
    rw [outsAt0_A m c ⟨0, hn⟩ (Nat.zero_mod _)]
    exact running_reset m c ⟨0, hn⟩ (Nat.zero_mod _)
  | n + 1, hn => by
    by_cases h0 : (n + 1) % 32 = 0
    · rw [outsAt0_A m c ⟨n + 1, hn⟩ h0]
      exact running_reset m c ⟨n + 1, hn⟩ h0
    · rw [outsAt0_B m c ⟨n + 1, hn⟩ h0]
      exact running_step m c n hn h0 _ (running c n (Nat.lt_of_succ_lt hn))

end Cert.KernelIdeal.Val

end
-- ==== Proof.KI.Final.lean ====
/-
  The three accumulator arrays after the run. Each is written back twice, after each core's last step
  (points 31 and 63), into that core's slab; what is written is the running sum over all 32 of the core's
  tiles; the two slabs tile the array. So each array ends at the per-core sums of the specification.
-/
import proofs.«419888_j24352464569636_3_alg».proof.Proof.KI.Accum

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- The accumulator windows are never cut: their block is a whole slab at every point. -/
theorem xs2 : ∀ t : Fin cfg0.N, win0_2.xsize (grid0.coords t) (0 : Fin 3) = 1 ∧ win0_2.xsize (grid0.coords t) (1 : Fin 3) = 1000 ∧ win0_2.xsize (grid0.coords t) (2 : Fin 3) = 1 :=
  (by decide +kernel : ∀ t : Fin grid0.N, win0_2.xsize (grid0.coords t) (0 : Fin 3) = 1 ∧ win0_2.xsize (grid0.coords t) (1 : Fin 3) = 1000 ∧ win0_2.xsize (grid0.coords t) (2 : Fin 3) = 1)
theorem xs3 : ∀ t : Fin cfg0.N, win0_3.xsize (grid0.coords t) (0 : Fin 3) = 1 ∧ win0_3.xsize (grid0.coords t) (1 : Fin 3) = 1000 ∧ win0_3.xsize (grid0.coords t) (2 : Fin 3) = 512 :=
  (by decide +kernel : ∀ t : Fin grid0.N, win0_3.xsize (grid0.coords t) (0 : Fin 3) = 1 ∧ win0_3.xsize (grid0.coords t) (1 : Fin 3) = 1000 ∧ win0_3.xsize (grid0.coords t) (2 : Fin 3) = 512)
theorem xs4 : ∀ t : Fin cfg0.N, win0_4.xsize (grid0.coords t) (0 : Fin 3) = 1 ∧ win0_4.xsize (grid0.coords t) (1 : Fin 3) = 1000 ∧ win0_4.xsize (grid0.coords t) (2 : Fin 3) = 512 :=
  (by decide +kernel : ∀ t : Fin grid0.N, win0_4.xsize (grid0.coords t) (0 : Fin 3) = 1 ∧ win0_4.xsize (grid0.coords t) (1 : Fin 3) = 1000 ∧ win0_4.xsize (grid0.coords t) (2 : Fin 3) = 512)

/-- A sum over a core's 32 tiles, from the running sum after the core's last step. -/
theorem range_last (f : ℕ → EReal) (n : ℕ) (h : n % 32 = 31) :
    ∑ i ∈ Finset.range (n % 32 + 1), f (32 * (n / 32) + i) = ∑ i ∈ Finset.range 32, f (32 * (n / 32) + i) := by
  rw [h]

/-- What a write-back of accumulator 2 writes is the core's slab of the specification, read through the block. -/
theorem flushed2_eq (c : Dev nD) (t : Fin cfg0.N) (hf : (cfg0.win 2).flush t = true) :
    (dats m 0 c).flushed 2 t = ((cfg0.win 2).blk t).view.read (Elt Ideal) (slabCnt (labOf m c)) := by
  have h31 : t.val % 32 = 31 := (flush0_2 t).mp hf
  have hN : t.val < 64 := lt_of_lt_of_eq t.isLt (show cfg0.N = 64 from N_0)
  funext y
  show (dats m 0 c).after 2 t ((cfg0.win 2).xinj (grid0.coords t) y) = _
  rw [after0_2, View.read_apply]
  show (outsAt0 m c t.val t.isLt).1 ((cfg0.win 2).xinj (grid0.coords t) y) = (slabCnt (labOf m c)) (((cfg0.win 2).blk t).view.emb y)
  have y0 : (y 0).val < 1 := lt_of_lt_of_eq (y 0).isLt (xs2 t).1
  have y1 : (y 1).val < 1000 := lt_of_lt_of_eq (y 1).isLt (xs2 t).2.1
  have y2 : (y 2).val < 1 := lt_of_lt_of_eq (y 2).isLt (xs2 t).2.2
  let cls : Fin 1000 := ⟨(y 1).val, y1⟩

  have hy : (cfg0.win 2).xinj (grid0.coords t) y = ix3 (0 : Fin 1) cls (0 : Fin 1) := funext fun d => match d with
    | ⟨0, _⟩ => Fin.ext (show (y 0).val = 0 by omega)
    | ⟨1, _⟩ => rfl
    | ⟨2, _⟩ => Fin.ext (show (y 2).val = 0 by omega)
  have he : ((cfg0.win 2).blk t).view.emb y = ix3 (⟨t.val / 32, by omega⟩ : Fin 2) cls (0 : Fin 1) := funext fun d => match d with
    | ⟨0, _⟩ => Fin.ext (show win0_2.index t 0 * 1 + 1 * (y 0).val = t.val / 32 by rw [(idx2 t).1]; omega)
    | ⟨1, _⟩ => Fin.ext (show win0_2.index t 1 * 1000 + 1 * (y 1).val = (y 1).val by rw [(idx2 t).2.1]; omega)
    | ⟨2, _⟩ => Fin.ext (show win0_2.index t 2 * 1 + 1 * (y 2).val = 0 by rw [(idx2 t).2.2]; omega)
  rw [hy, he, (running m c t.val t.isLt).1 cls, range_last _ _ h31]
  rfl

/-- The two write-backs cover accumulator array 2: index `(q, ·, ·)` lies in the block written after core `q`'s last step. -/
theorem cover2 (i : S2x1000x1.Idx) :
    ∃ t : Fin cfg0.N, (cfg0.win 2).flush t = true ∧ i ∈ ((cfg0.win 2).blk t).view.set := by
  have i0 : (i 0).val < 2 := (i 0).isLt
  have i1 : (i 1).val < 1000 := (i 1).isLt
  have i2 : (i 2).val < 1 := (i 2).isLt
  have hN : cfg0.N = 64 := N_0
  let t : Fin cfg0.N := ⟨32 * (i 0).val + 31, by omega⟩
  refine ⟨t, (flush0_2 t).mpr (by show (32 * (i 0).val + 31) % 32 = 31; omega), ?_⟩
  show i ∈ ((View.whole main_v0_0).slice (win0_2.rect t)).set
  rw [View.set_slice_whole, Rect.mem_set_unit]
  intro d
  have ht : t.val / 32 = (i 0).val := by show (32 * (i 0).val + 31) / 32 = (i 0).val; omega
  match d with
  | ⟨0, _⟩ =>
    show win0_2.index t 0 * 1 ≤ (i 0 : Nat) ∧ (i 0 : Nat) < win0_2.index t 0 * 1 + win0_2.xsize (grid0.coords t) 0
    rw [(idx2 t).1, (xs2 t).1]; omega
  | ⟨1, _⟩ =>
    show win0_2.index t 1 * 1000 ≤ (i 1 : Nat) ∧ (i 1 : Nat) < win0_2.index t 1 * 1000 + win0_2.xsize (grid0.coords t) 1
    rw [(idx2 t).2.1, (xs2 t).2.1]; omega
  | ⟨2, _⟩ =>
    show win0_2.index t 2 * 1 ≤ (i 2 : Nat) ∧ (i 2 : Nat) < win0_2.index t 2 * 1 + win0_2.xsize (grid0.coords t) 2
    rw [(idx2 t).2.2, (xs2 t).2.2]; omega

/-- Accumulator array 2 ends at the per-core sums. -/
theorem final2 (c : Dev nD) : (dats m 0 c).arrAt 2 cfg0.N = slabCnt (labOf m c) :=
  (dats m 0 c).arrAt_eq_of_cover 2 (slabCnt (labOf m c)) (flushed2_eq m c) (cover2)

/-- What a write-back of accumulator 3 writes is the core's slab of the specification, read through the block. -/
theorem flushed3_eq (c : Dev nD) (t : Fin cfg0.N) (hf : (cfg0.win 3).flush t = true) :
    (dats m 0 c).flushed 3 t = ((cfg0.win 3).blk t).view.read (Elt Ideal) (slabSum (xOf m c) (labOf m c)) := by
  have h31 : t.val % 32 = 31 := (flush0_3 t).mp hf
  have hN : t.val < 64 := lt_of_lt_of_eq t.isLt (show cfg0.N = 64 from N_0)
  funext y
  show (dats m 0 c).after 3 t ((cfg0.win 3).xinj (grid0.coords t) y) = _
  rw [after0_3, View.read_apply]
  show (outsAt0 m c t.val t.isLt).2.1 ((cfg0.win 3).xinj (grid0.coords t) y) = (slabSum (xOf m c) (labOf m c)) (((cfg0.win 3).blk t).view.emb y)
  have y0 : (y 0).val < 1 := lt_of_lt_of_eq (y 0).isLt (xs3 t).1
  have y1 : (y 1).val < 1000 := lt_of_lt_of_eq (y 1).isLt (xs3 t).2.1
  have y2 : (y 2).val < 512 := lt_of_lt_of_eq (y 2).isLt (xs3 t).2.2
  let cls : Fin 1000 := ⟨(y 1).val, y1⟩
  let a : Fin 512 := ⟨(y 2).val, y2⟩
  have hy : (cfg0.win 3).xinj (grid0.coords t) y = ix3 (0 : Fin 1) cls a := funext fun d => match d with
    | ⟨0, _⟩ => Fin.ext (show (y 0).val = 0 by omega)
    | ⟨1, _⟩ => rfl
    | ⟨2, _⟩ => rfl
  have he : ((cfg0.win 3).blk t).view.emb y = ix3 (⟨t.val / 32, by omega⟩ : Fin 2) cls a := funext fun d => match d with
    | ⟨0, _⟩ => Fin.ext (show win0_3.index t 0 * 1 + 1 * (y 0).val = t.val / 32 by rw [(idx3 t).1]; omega)
    | ⟨1, _⟩ => Fin.ext (show win0_3.index t 1 * 1000 + 1 * (y 1).val = (y 1).val by rw [(idx3 t).2.1]; omega)
    | ⟨2, _⟩ => Fin.ext (show win0_3.index t 2 * 512 + 1 * (y 2).val = (y 2).val by rw [(idx3 t).2.2]; omega)
  rw [hy, he, (running m c t.val t.isLt).2.1 cls a, range_last _ _ h31]
  rfl

/-- The two write-backs cover accumulator array 3: index `(q, ·, ·)` lies in the block written after core `q`'s last step. -/
theorem cover3 (i : S2x1000x512.Idx) :
    ∃ t : Fin cfg0.N, (cfg0.win 3).flush t = true ∧ i ∈ ((cfg0.win 3).blk t).view.set := by
  have i0 : (i 0).val < 2 := (i 0).isLt
  have i1 : (i 1).val < 1000 := (i 1).isLt
  have i2 : (i 2).val < 512 := (i 2).isLt
  have hN : cfg0.N = 64 := N_0
  let t : Fin cfg0.N := ⟨32 * (i 0).val + 31, by omega⟩
  refine ⟨t, (flush0_3 t).mpr (by show (32 * (i 0).val + 31) % 32 = 31; omega), ?_⟩
  show i ∈ ((View.whole main_v0_1).slice (win0_3.rect t)).set
  rw [View.set_slice_whole, Rect.mem_set_unit]
  intro d
  have ht : t.val / 32 = (i 0).val := by show (32 * (i 0).val + 31) / 32 = (i 0).val; omega
  match d with
  | ⟨0, _⟩ =>
    show win0_3.index t 0 * 1 ≤ (i 0 : Nat) ∧ (i 0 : Nat) < win0_3.index t 0 * 1 + win0_3.xsize (grid0.coords t) 0
    rw [(idx3 t).1, (xs3 t).1]; omega
  | ⟨1, _⟩ =>
    show win0_3.index t 1 * 1000 ≤ (i 1 : Nat) ∧ (i 1 : Nat) < win0_3.index t 1 * 1000 + win0_3.xsize (grid0.coords t) 1
    rw [(idx3 t).2.1, (xs3 t).2.1]; omega
  | ⟨2, _⟩ =>
    show win0_3.index t 2 * 512 ≤ (i 2 : Nat) ∧ (i 2 : Nat) < win0_3.index t 2 * 512 + win0_3.xsize (grid0.coords t) 2
    rw [(idx3 t).2.2, (xs3 t).2.2]; omega

/-- Accumulator array 3 ends at the per-core sums. -/
theorem final3 (c : Dev nD) : (dats m 0 c).arrAt 3 cfg0.N = slabSum (xOf m c) (labOf m c) :=
  (dats m 0 c).arrAt_eq_of_cover 3 (slabSum (xOf m c) (labOf m c)) (flushed3_eq m c) (cover3)

/-- What a write-back of accumulator 4 writes is the core's slab of the specification, read through the block. -/
theorem flushed4_eq (c : Dev nD) (t : Fin cfg0.N) (hf : (cfg0.win 4).flush t = true) :
    (dats m 0 c).flushed 4 t = ((cfg0.win 4).blk t).view.read (Elt Ideal) (slabSq (xOf m c) (labOf m c)) := by
  have h31 : t.val % 32 = 31 := (flush0_4 t).mp hf
  have hN : t.val < 64 := lt_of_lt_of_eq t.isLt (show cfg0.N = 64 from N_0)
  funext y
  show (dats m 0 c).after 4 t ((cfg0.win 4).xinj (grid0.coords t) y) = _
  rw [after0_4, View.read_apply]
  show (outsAt0 m c t.val t.isLt).2.2 ((cfg0.win 4).xinj (grid0.coords t) y) = (slabSq (xOf m c) (labOf m c)) (((cfg0.win 4).blk t).view.emb y)
  have y0 : (y 0).val < 1 := lt_of_lt_of_eq (y 0).isLt (xs4 t).1
  have y1 : (y 1).val < 1000 := lt_of_lt_of_eq (y 1).isLt (xs4 t).2.1
  have y2 : (y 2).val < 512 := lt_of_lt_of_eq (y 2).isLt (xs4 t).2.2
  let cls : Fin 1000 := ⟨(y 1).val, y1⟩
  let a : Fin 512 := ⟨(y 2).val, y2⟩
  have hy : (cfg0.win 4).xinj (grid0.coords t) y = ix3 (0 : Fin 1) cls a := funext fun d => match d with
    | ⟨0, _⟩ => Fin.ext (show (y 0).val = 0 by omega)
    | ⟨1, _⟩ => rfl
    | ⟨2, _⟩ => rfl
  have he : ((cfg0.win 4).blk t).view.emb y = ix3 (⟨t.val / 32, by omega⟩ : Fin 2) cls a := funext fun d => match d with
    | ⟨0, _⟩ => Fin.ext (show win0_4.index t 0 * 1 + 1 * (y 0).val = t.val / 32 by rw [(idx4 t).1]; omega)
    | ⟨1, _⟩ => Fin.ext (show win0_4.index t 1 * 1000 + 1 * (y 1).val = (y 1).val by rw [(idx4 t).2.1]; omega)
    | ⟨2, _⟩ => Fin.ext (show win0_4.index t 2 * 512 + 1 * (y 2).val = (y 2).val by rw [(idx4 t).2.2]; omega)
  rw [hy, he, (running m c t.val t.isLt).2.2 cls a, range_last _ _ h31]
  rfl

/-- The two write-backs cover accumulator array 4: index `(q, ·, ·)` lies in the block written after core `q`'s last step. -/
theorem cover4 (i : S2x1000x512.Idx) :
    ∃ t : Fin cfg0.N, (cfg0.win 4).flush t = true ∧ i ∈ ((cfg0.win 4).blk t).view.set := by
  have i0 : (i 0).val < 2 := (i 0).isLt
  have i1 : (i 1).val < 1000 := (i 1).isLt
  have i2 : (i 2).val < 512 := (i 2).isLt
  have hN : cfg0.N = 64 := N_0
  let t : Fin cfg0.N := ⟨32 * (i 0).val + 31, by omega⟩
  refine ⟨t, (flush0_4 t).mpr (by show (32 * (i 0).val + 31) % 32 = 31; omega), ?_⟩
  show i ∈ ((View.whole main_v0_2).slice (win0_4.rect t)).set
  rw [View.set_slice_whole, Rect.mem_set_unit]
  intro d
  have ht : t.val / 32 = (i 0).val := by show (32 * (i 0).val + 31) / 32 = (i 0).val; omega
  match d with
  | ⟨0, _⟩ =>
    show win0_4.index t 0 * 1 ≤ (i 0 : Nat) ∧ (i 0 : Nat) < win0_4.index t 0 * 1 + win0_4.xsize (grid0.coords t) 0
    rw [(idx4 t).1, (xs4 t).1]; omega
  | ⟨1, _⟩ =>
    show win0_4.index t 1 * 1000 ≤ (i 1 : Nat) ∧ (i 1 : Nat) < win0_4.index t 1 * 1000 + win0_4.xsize (grid0.coords t) 1
    rw [(idx4 t).2.1, (xs4 t).2.1]; omega
  | ⟨2, _⟩ =>
    show win0_4.index t 2 * 512 ≤ (i 2 : Nat) ∧ (i 2 : Nat) < win0_4.index t 2 * 512 + win0_4.xsize (grid0.coords t) 2
    rw [(idx4 t).2.2, (xs4 t).2.2]; omega

/-- Accumulator array 4 ends at the per-core sums. -/
theorem final4 (c : Dev nD) : (dats m 0 c).arrAt 4 cfg0.N = slabSq (xOf m c) (labOf m c) :=
  (dats m 0 c).arrAt_eq_of_cover 4 (slabSq (xOf m c) (labOf m c)) (flushed4_eq m c) (cover4)

end Cert.KernelIdeal.Val

end
-- ==== Proof.HostTail.lean ====
/-
  The host lines that follow the per-class counts, sums and sums of squares: the safe divisor, the class
  mean, the variance in its one-pass form, the blending weight, and the three updated statistics. Both
  programs run these lines (under their own buffer names); they are stated here once, over any float family,
  as compositions of the printed operations.
-/
import Idealize.ShloMosaic.PureOps.Ideal
import Idealize.ShloMosaic.PureOps.Contract
import Idealize.ShloMosaic.PureOps.ShapeOps
import Idealize.ShloMosaic.Lib.ValueIdx

noncomputable section

namespace Cert.HostTail

open Idealize.ShloMosaic

variable {F : FTy → Type} [FloatOps F]

abbrev S_ : Shape := ⟨0, ![]⟩
abbrev SC : Shape := ⟨1, ![1000]⟩
abbrev SC1 : Shape := ⟨2, ![1000, 1]⟩
abbrev SCA : Shape := ⟨2, ![1000, 512]⟩

/-- The five broadcast relations the shared lines cite (each program's facts prove them under its own names). -/
structure Bc : Prop where
  s_c : S_.BroadcastsInDim SC (![] : Fin 0 → Fin SC.rank)
  c_c1 : SC.BroadcastsInDim SC1 (![0] : Fin 1 → Fin SC1.rank)
  c1_ca : SC1.BroadcastsInDim SCA (![0, 1] : Fin 2 → Fin SCA.rank)
  s_ca : S_.BroadcastsInDim SCA (![] : Fin 0 → Fin SCA.rank)
  s_c1 : S_.BroadcastsInDim SC1 (![] : Fin 0 → Fin SC1.rank)

/-- The safe divisor as a column: where(cnt == 0, 1, cnt)[:, None], of shape [1000, 1]. -/
def as1 (h : Bc) (cnt : FVec F SC .f32) : FVec F SC1 .f32 :=
  broadcastInDim SC1 ![0] h.c_c1
    (select
      (cmpf (F := F) .oeq cnt (broadcastInDim SC ![] h.s_c (constant (F := F) S_ .f32 0x00000000#32)))
      (broadcastInDim SC ![] h.s_c (constant (F := F) S_ .f32 0x3F800000#32))
      cnt)

/-- The safe divisor broadcast to [1000, 512]: where(cnt == 0, 1, cnt)[:, None] along the features. -/
def asB (h : Bc) (cnt : FVec F SC .f32) : FVec F SCA .f32 :=
  broadcastInDim SCA ![0, 1] h.c1_ca (as1 h cnt)

/-- ave = sums / amount_safe. -/
def ave (h : Bc) (cnt : FVec F SC .f32) (sums : FVec F SCA .f32) : FVec F SCA .f32 :=
  Host.divf (F := F) sums (asB h cnt)

/-- The one-pass variance: max(sumsq / amount_safe − ave², 0). -/
def varK (h : Bc) (cnt : FVec F SC .f32) (sums sumsq : FVec F SCA .f32) : FVec F SCA .f32 :=
  maximumf (F := F)
    (subf (F := F) (Host.divf (F := F) sumsq (asB h cnt)) (mulf (F := F) (ave h cnt sums) (ave h cnt sums)))
    (broadcastInDim SCA ![] h.s_ca (constant (F := F) S_ .f32 0x00000000#32))

/-- den = cnt + amount. -/
def den (cnt amount : FVec F SC .f32) : FVec F SC .f32 := addf (F := F) cnt amount

/-- w_raw = where(den > 0, cnt / where(den > 0, den, 1), 0). -/
def wRaw (h : Bc) (cnt amount : FVec F SC .f32) : FVec F SC .f32 :=
  select
    (cmpf (F := F) .ogt (den cnt amount) (broadcastInDim SC ![] h.s_c (constant (F := F) S_ .f32 0x00000000#32)))
    (Host.divf (F := F) cnt
      (select
        (cmpf (F := F) .ogt (den cnt amount) (broadcastInDim SC ![] h.s_c (constant (F := F) S_ .f32 0x00000000#32)))
        (den cnt amount)
        (broadcastInDim SC ![] h.s_c (constant (F := F) S_ .f32 0x3F800000#32))))
    (broadcastInDim SC ![] h.s_c (constant (F := F) S_ .f32 0x00000000#32))

/-- The weight as a column: (max(w_raw, 0.2) · [w_raw > 0])[:, None], of shape [1000, 1]. -/
def w1 (h : Bc) (cnt amount : FVec F SC .f32) : FVec F SC1 .f32 :=
  broadcastInDim SC1 ![0] h.c_c1
    (mulf (F := F)
      (maximumf (F := F) (wRaw h cnt amount) (broadcastInDim SC ![] h.s_c (constant (F := F) S_ .f32 0x3E4CCCCD#32)))
      (uitofp (F := F) .f32
        (cmpf (F := F) .ogt (wRaw h cnt amount) (broadcastInDim SC ![] h.s_c (constant (F := F) S_ .f32 0x00000000#32)))))

/-- 1 − w, as a column. -/
def oneSubW1 (h : Bc) (cnt amount : FVec F SC .f32) : FVec F SC1 .f32 :=
  subf (F := F) (broadcastInDim SC1 ![] h.s_c1 (constant (F := F) S_ .f32 0x3F800000#32)) (w1 h cnt amount)

/-- additional = (w · (1 − w)) · (mean − ave)². -/
def additional (h : Bc) (cnt : FVec F SC .f32) (av mean : FVec F SCA .f32) (amount : FVec F SC .f32) :
    FVec F SCA .f32 :=
  mulf (F := F)
    (broadcastInDim SCA ![0, 1] h.c1_ca (mulf (F := F) (w1 h cnt amount) (oneSubW1 h cnt amount)))
    (mulf (F := F) (subf (F := F) mean av) (subf (F := F) mean av))

/-- new_cov = cov · (1 − w) + var · w + additional. -/
def newCov (h : Bc) (cnt : FVec F SC .f32) (av var cov mean : FVec F SCA .f32) (amount : FVec F SC .f32) :
    FVec F SCA .f32 :=
  addf (F := F)
    (addf (F := F)
      (mulf (F := F) cov (broadcastInDim SCA ![0, 1] h.c1_ca (oneSubW1 h cnt amount)))
      (mulf (F := F) var (broadcastInDim SCA ![0, 1] h.c1_ca (w1 h cnt amount))))
    (additional h cnt av mean amount)

/-- new_mean = mean · (1 − w) + ave · w. -/
def newMean (h : Bc) (cnt : FVec F SC .f32) (av mean : FVec F SCA .f32) (amount : FVec F SC .f32) :
    FVec F SCA .f32 :=
  addf (F := F)
    (mulf (F := F) mean (broadcastInDim SCA ![0, 1] h.c1_ca (oneSubW1 h cnt amount)))
    (mulf (F := F) av (broadcastInDim SCA ![0, 1] h.c1_ca (w1 h cnt amount)))

/-- new_amount = amount + cnt. -/
def newAmount (cnt amount : FVec F SC .f32) : FVec F SC .f32 := addf (F := F) amount cnt

end Cert.HostTail

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.KI.Tail.lean ====
/-
  The kernel program's host lines after its region: the two cores' slabs of counts, sums and sums of squares are
  added, and from them the class mean, the one-pass variance, the blending weight and the three updated
  statistics are formed. The lines are read off in order and shown to be the shared definitions of the host
  tail applied to the summed slabs.
-/
import proofs.«419888_j24352464569636_3_alg».proof.Proof.Gen.KernelIdeal.Launch
import proofs.«419888_j24352464569636_3_alg».proof.Proof.HostTail
import proofs.«419888_j24352464569636_3_alg».proof.Proof.LibERealBatchNorm
import Idealize.ShloMosaic.Lib.StableHlo.Run
import Idealize.ShloMosaic.PureOps.Ideal.Laws
import Idealize.ShloMosaic.Lib.ValueIdx

set_option maxRecDepth 16384

noncomputable section

namespace Cert.KernelIdeal.KTail

open Cert.KernelIdeal Cert.KernelIdeal.Gen
open Idealize.ShloMosaic Idealize.ShloMosaic.TcCoe Idealize.ShloMosaic.ValueIdx
open Idealize.SL.Sem

variable {F : FTy → Type} [FloatOps F]

/-- The broadcast relations the shared lines cite, under this program's names. -/
theorem bc : Cert.HostTail.Bc :=
  ⟨Gen.bcast_S_S1000, Gen.bcast_S1000_S1000x1_0, Gen.bcast_S1000x1_S1000x512_0_1, Gen.bcast_S_S1000x512, Gen.bcast_S_S1000x1⟩

/-- The counts of the two cores added: the [2, 1000, 1] slab read as [2, 1000], then summed over the cores. -/
def cntK (cnt2d : FVec F S2x1000x1 .f32) : FVec F S1000 .f32 :=
  Host.reduceAdd (F := F) (shapeCast S2x1000 cnt2d Gen.shapeCasts_S2x1000x1_S2x1000)
    (constant (F := F) S_ .f32 0x00000000#32) Gen.reducesTo_S2x1000_S1000_d0 Gen.h_S_

/-- A [2, 1000, 512] slab summed over the cores (the sums, and the sums of squares). -/
def sumsK (s2 : FVec F S2x1000x512 .f32) : FVec F S1000x512 .f32 :=
  Host.reduceAdd (F := F) s2 (constant (F := F) S_ .f32 0x00000000#32) Gen.reducesTo_S2x1000x512_S1000x512_d0 Gen.h_S_

theorem out54 (W : Valuation τ sig (Elt F)) :
    StableHlo.after (List.flatten [hostOps1, hostOps1_1, hostOps1_2, hostOps1_3, hostOps1_4, hostOps1_5, hostOps1_6]) W
        (Proc.devRef .tc main_v54)
      = Cert.HostTail.newAmount (cntK (W (Proc.devRef .tc main_v0_0) : FVec F S2x1000x1 .f32))
          (W (Proc.devRef .tc main_arg4) : FVec F S1000 .f32) := by
  simp only [hostOps1, hostOps1_1, hostOps1_2, hostOps1_3, hostOps1_4, hostOps1_5, hostOps1_6, List.flatten_cons,
    List.flatten_nil, List.append_nil, List.cons_append, List.nil_append]
  after_results_simp
  rfl

theorem out53 (W : Valuation τ sig (Elt F)) :
    StableHlo.after (List.flatten [hostOps1, hostOps1_1, hostOps1_2, hostOps1_3, hostOps1_4, hostOps1_5, hostOps1_6]) W
        (Proc.devRef .tc main_v53)
      = Cert.HostTail.newMean bc (cntK (W (Proc.devRef .tc main_v0_0) : FVec F S2x1000x1 .f32))
          (Cert.HostTail.ave bc (cntK (W (Proc.devRef .tc main_v0_0) : FVec F S2x1000x1 .f32))
            (sumsK (W (Proc.devRef .tc main_v0_1) : FVec F S2x1000x512 .f32)))
          (W (Proc.devRef .tc main_arg3) : FVec F S1000x512 .f32)
          (W (Proc.devRef .tc main_arg4) : FVec F S1000 .f32) := by
  simp only [hostOps1, hostOps1_1, hostOps1_2, hostOps1_3, hostOps1_4, hostOps1_5, hostOps1_6, List.flatten_cons,
    List.flatten_nil, List.append_nil, List.cons_append, List.nil_append]
  after_results_simp
  rfl

theorem out46 (W : Valuation τ sig (Elt F)) :
    StableHlo.after (List.flatten [hostOps1, hostOps1_1, hostOps1_2, hostOps1_3, hostOps1_4, hostOps1_5, hostOps1_6]) W
        (Proc.devRef .tc main_v46)
      = Cert.HostTail.newCov bc (cntK (W (Proc.devRef .tc main_v0_0) : FVec F S2x1000x1 .f32))
          (Cert.HostTail.ave bc (cntK (W (Proc.devRef .tc main_v0_0) : FVec F S2x1000x1 .f32))
            (sumsK (W (Proc.devRef .tc main_v0_1) : FVec F S2x1000x512 .f32)))
          (Cert.HostTail.varK bc (cntK (W (Proc.devRef .tc main_v0_0) : FVec F S2x1000x1 .f32))
            (sumsK (W (Proc.devRef .tc main_v0_1) : FVec F S2x1000x512 .f32))
            (sumsK (W (Proc.devRef .tc main_v0_2) : FVec F S2x1000x512 .f32)))
          (W (Proc.devRef .tc main_arg2) : FVec F S1000x512 .f32)
          (W (Proc.devRef .tc main_arg3) : FVec F S1000x512 .f32)
          (W (Proc.devRef .tc main_arg4) : FVec F S1000 .f32) := by
  simp only [hostOps1, hostOps1_1, hostOps1_2, hostOps1_3, hostOps1_4, hostOps1_5, hostOps1_6, List.flatten_cons,
    List.flatten_nil, List.append_nil, List.cons_append, List.nil_append]
  after_results_simp
  rfl

/-! ## The summed slabs at the extended reals, entry by entry -/

/-- Summing a [2, 1000] array over its first axis keeps [1000]. -/
theorem red2 : S2x1000.Reduces [0] S1000 := by decide

/-- Summing a [2, 1000, 512] array over its first axis keeps [1000, 512]. -/
theorem red3 : S2x1000x512.Reduces [0] S1000x512 := by decide

/-- The entry of [2, 1000] above entry c of the sum, on core k, is (k, c). -/
theorem lift2 (c : Fin 1000) (k : Fin 2) : red2.lift (ix1 c) k = ix2 k c := by
  funext a
  match a with
  | ⟨0, _⟩ => rfl
  | ⟨1, _⟩ => rfl

/-- The entry of [2, 1000, 512] above entry (c, a) of the sum, on core k, is (k, c, a). -/
theorem lift3 (c : Fin 1000) (a : Fin 512) (k : Fin 2) : red3.lift (ix2 c a) k = ix3 k c a := by
  funext b
  match b with
  | ⟨0, _⟩ => rfl
  | ⟨1, _⟩ => rfl
  | ⟨2, _⟩ => rfl

/-- The [2, 1000, 1] slab read as [2, 1000]: entry (k, c) is entry (k, c, 0), both at row-major position 1000 k + c. -/
theorem cast2 (x : FVec Ideal S2x1000x1 .f32) (k : Fin 2) (c : Fin 1000) :
    shapeCast S2x1000 x Gen.shapeCasts_S2x1000x1_S2x1000 (ix2 k c) = x (ix3 k c (0 : Fin 1)) := by
  unfold shapeCast
  refine congrArg x (Shape.reshapeEquiv_eq_of_rowMajor _ ?_)
  rw [Shape.rowMajor_val_three, Shape.rowMajor_val_two]
  show (k.val * 1000 + c.val) * 1 + 0 = k.val * 1000 + c.val
  omega

/-- The count of class c is the sum of the two cores' counts. -/
theorem cntK_apply (cnt2d : FVec Ideal S2x1000x1 .f32) (c : Fin 1000) :
    cntK (F := Ideal) cnt2d (ix1 c) = cnt2d (ix3 (0 : Fin 2) c (0 : Fin 1)) + cnt2d (ix3 (1 : Fin 2) c (0 : Fin 1)) := by
  unfold cntK
  refine (Ideal.hostReduceAdd_single Gen.reducesTo_S2x1000_S1000_d0 red2 _ _ (ix1 c)).trans ?_
  show Ideal.ofBits .f32 0x00000000#32 + ∑ k : Fin 2, _ = _
  rw [Cert.ERealBN.ofBits_zero, zero_add, Fin.sum_univ_two, lift2, lift2, cast2, cast2]

/-- The entry (c, a) of a summed slab is the sum of the two cores' entries. -/
theorem sumsK_apply (s2 : FVec Ideal S2x1000x512 .f32) (c : Fin 1000) (a : Fin 512) :
    sumsK (F := Ideal) s2 (ix2 c a) = s2 (ix3 (0 : Fin 2) c a) + s2 (ix3 (1 : Fin 2) c a) := by
  unfold sumsK
  refine (Ideal.hostReduceAdd_single Gen.reducesTo_S2x1000x512_S1000x512_d0 red3 _ _ (ix2 c a)).trans ?_
  show Ideal.ofBits .f32 0x00000000#32 + ∑ k : Fin 2, _ = _
  rw [Cert.ERealBN.ofBits_zero, zero_add, Fin.sum_univ_two, lift3, lift3]

end Cert.KernelIdeal.KTail

end
-- ==== Proof.KI.Results.lean ====
/-
  The idealized kernel's three results as terms: the shared host tail applied to the per-class count, sum and
  sum of squares that the host obtains by adding the two cores' slabs of the accumulator arrays.
-/
import proofs.«419888_j24352464569636_3_alg».proof.Proof.KI.Accum
import proofs.«419888_j24352464569636_3_alg».proof.Proof.KI.Tail

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

open Cert.KernelIdeal.KTail

/-- The host's sums over the two cores' slabs. -/
abbrev cntV (c : Dev nD) : FVec Ideal S1000 .f32 := cntK (F := Ideal) (slabCnt (labOf m c))
abbrev sumsV (c : Dev nD) : FVec Ideal S1000x512 .f32 := sumsK (F := Ideal) (slabSum (xOf m c) (labOf m c))
abbrev sqV (c : Dev nD) : FVec Ideal S1000x512 .f32 := sumsK (F := Ideal) (slabSq (xOf m c) (labOf m c))

/-- The three results, as the shared tail of the kernel's count, mean and variance. -/
def res46 (c : Dev nD) : FVec Ideal S1000x512 .f32 :=
  Cert.HostTail.newCov bc (cntV m c) (Cert.HostTail.ave bc (cntV m c) (sumsV m c))
    (Cert.HostTail.varK bc (cntV m c) (sumsV m c) (sqV m c))
    (m ((c : Thread nD τ).loc main_arg2)) (m ((c : Thread nD τ).loc main_arg3)) (m ((c : Thread nD τ).loc main_arg4))
def res53 (c : Dev nD) : FVec Ideal S1000x512 .f32 :=
  Cert.HostTail.newMean bc (cntV m c) (Cert.HostTail.ave bc (cntV m c) (sumsV m c))
    (m ((c : Thread nD τ).loc main_arg3)) (m ((c : Thread nD τ).loc main_arg4))
def res54 (c : Dev nD) : FVec Ideal S1000 .f32 :=
  Cert.HostTail.newAmount (cntV m c) (m ((c : Thread nD τ).loc main_arg4))

end Cert.KernelIdeal.Val

end
-- ==== Proof.KI.RunValue.lean ====
/-
  The idealized kernel's run, read: every weakly fair execution of its @main ends with the three result arrays
  at the shared host tail applied to the per-class count, sum and sum of squares that the host obtains by adding
  the two cores' slabs of the accumulator arrays, and with the five argument arrays unchanged.
-/
import proofs.«419888_j24352464569636_3_alg».proof.Proof.KI.Frame
import proofs.«419888_j24352464569636_3_alg».proof.Proof.KI.Final
import proofs.«419888_j24352464569636_3_alg».proof.Proof.KI.Results

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

open Cert.KernelIdeal.KTail

/-- The buffers the host lines start from: the staged arrays as the proof data computes them, the rest as launched. -/
abbrev W (c : Dev nD) : Valuation τ sig (Elt Ideal) :=
  Pipeline.withArrays (cfgs 0).spec c (V0 m c) fun w => (dats m 0 c).arrAt w (cfgs 0).N

theorem W_v0_0 (c : Dev nD) : (W m c (Proc.devRef .tc main_v0_0) : FVec Ideal S2x1000x1 .f32) = slabCnt (labOf m c) :=
  (Pipeline.withArrays_arr spec0 launch0.win.arr_inj c _ _ 2).trans (final2 m c)
theorem W_v0_1 (c : Dev nD) : (W m c (Proc.devRef .tc main_v0_1) : FVec Ideal S2x1000x512 .f32) = slabSum (xOf m c) (labOf m c) :=
  (Pipeline.withArrays_arr spec0 launch0.win.arr_inj c _ _ 3).trans (final3 m c)
theorem W_v0_2 (c : Dev nD) : (W m c (Proc.devRef .tc main_v0_2) : FVec Ideal S2x1000x512 .f32) = slabSq (xOf m c) (labOf m c) :=
  (Pipeline.withArrays_arr spec0 launch0.win.arr_inj c _ _ 4).trans (final4 m c)
theorem W_arg2 (c : Dev nD) : W m c (Proc.devRef .tc main_arg2) = m ((c : Thread nD τ).loc main_arg2) :=
  Pipeline.withArrays_of_ne _ c (V0 m c) _ main_arg2 (by exact (by decide : ∀ w, Pipeline.arrRef spec0 w ≠ main_arg2))
theorem W_arg3 (c : Dev nD) : W m c (Proc.devRef .tc main_arg3) = m ((c : Thread nD τ).loc main_arg3) :=
  Pipeline.withArrays_of_ne _ c (V0 m c) _ main_arg3 (by exact (by decide : ∀ w, Pipeline.arrRef spec0 w ≠ main_arg3))
theorem W_arg4 (c : Dev nD) : W m c (Proc.devRef .tc main_arg4) = m ((c : Thread nD τ).loc main_arg4) :=
  Pipeline.withArrays_of_ne _ c (V0 m c) _ main_arg4 (by exact (by decide : ∀ w, Pipeline.arrRef spec0 w ≠ main_arg4))

theorem tail46 (c : Dev nD) : Pipeline.afterTail₀ cfgs (dats m) 0 (V0 m) tailOps c main_v46 = res46 m c := by
  unfold Pipeline.afterTail₀ res46
  refine (out46 (F := Ideal) (W m c)).trans ?_
  rw [W_v0_0, W_v0_1, W_v0_2, W_arg2, W_arg3, W_arg4]
theorem tail53 (c : Dev nD) : Pipeline.afterTail₀ cfgs (dats m) 0 (V0 m) tailOps c main_v53 = res53 m c := by
  unfold Pipeline.afterTail₀ res53
  refine (out53 (F := Ideal) (W m c)).trans ?_
  rw [W_v0_0, W_v0_1, W_arg3, W_arg4]
theorem tail54 (c : Dev nD) : Pipeline.afterTail₀ cfgs (dats m) 0 (V0 m) tailOps c main_v54 = res54 m c := by
  unfold Pipeline.afterTail₀ res54
  refine (out54 (F := Ideal) (W m c)).trans ?_
  rw [W_v0_0, W_arg4]

/-- The run, read. -/
theorem run : θ_run defs (onTc (τ := τ) (main (F := Ideal))) ⟨m, fun _ => 0, ρ⟩ (fun r => ∀ c : Dev nD,
      r.2.mem ((c.tc : Thread nD τ).loc main_v46) = res46 m c
      ∧ r.2.mem ((c.tc : Thread nD τ).loc main_v53) = res53 m c
      ∧ r.2.mem ((c.tc : Thread nD τ).loc main_v54) = res54 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v46 (Pipeline.mem_restRefs_of main_v46 (by decide) (by decide))).trans (tail46 m c),
     ((h c).2 main_v53 (Pipeline.mem_restRefs_of main_v53 (by decide) (by decide))).trans (tail53 m c),
     ((h c).2 main_v54 (Pipeline.mem_restRefs_of main_v54 (by decide) (by decide))).trans (tail54 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main (F := Ideal) m ρ)

end Cert.KernelIdeal.Val

end
-- ==== Proof.RefIndex.lean ====
/-
  The reference's two accumulating scatters and its gather, read at one element.

  A scatter of rows into a table of 1000 classes adds row `n` of the updates to class `c` exactly when the label
  of row `n`, read as a signed integer, is `c`: a label that is negative or at least 1000 lands outside the table and
  is dropped. Since `c < 1000 < 2^31`, "reads as `c`" is the same as "is the 32-bit word of `c`". So each
  scatter, at class `c`, is the operand there plus the sum over the rows of the batch whose label is `c`'s word.
  The gather reads the table at the label, normalised (a negative label has 1000 added) and clamped into the table;
  at a row whose label is class `c`'s word the normalisation and the clamp do nothing and it reads row `c`.
-/
import proofs.«419888_j24352464569636_3_alg».proof.ReferenceIdeal
import proofs.«419888_j24352464569636_3_alg».proof.Proof.Spec
import Idealize.ShloMosaic.PureOps.Ideal
import Idealize.ShloMosaic.Lib.ValueIdx
import Idealize.ShloMosaic.Lib.ValueIdxRank1
import Idealize.ShloMosaic.Lib.StableHlo.Predicate

noncomputable section

namespace Cert.ReferenceIdeal.RefIdx

open Idealize.ShloMosaic Idealize.ShloMosaic.ValueIdx Idealize.ShloMosaic.StableHlo
open Cert.ReferenceIdeal Cert.ReferenceIdeal.Facts₀ Cert.Spec
open scoped BigOperators

variable [Cert.ReferenceIdeal.Facts]

/-! ## The labels as the scatters and the gather receive them -/

/-- The labels as a column: what every scatter and the gather take as their start indices. -/
abbrev labB (lab : S65536.Idx → BitVec 32) : S65536x1.Idx → BitVec 32 :=
  broadcastInDim S65536x1 ![0] bcast_S65536_S65536x1_0 lab

/-- The labels normalised as the gather's indexing does: a negative label has the table's height added. -/
abbrev labNorm (lab : S65536.Idx → BitVec 32) : S65536.Idx → BitVec 32 :=
  select (cmpi .slt lab (broadcastInDim S65536 ![] bcast_S_S65536 (constantI S_ 32 0#32)))
    (addi lab (broadcastInDim S65536 ![] bcast_S_S65536 (constantI S_ 32 1000#32))) lab

/-- Row `n` of the column is the label of row `n`. -/
theorem labB_apply (lab : S65536.Idx → BitVec 32) (n : Fin 65536) : labB lab (ix2 n (0 : Fin 1)) = lab (ix1 n) := by
  unfold labB broadcastInDim
  congr 1
  funext a
  obtain rfl : a = 0 := Subsingleton.elim _ _
  apply Fin.ext
  split
  · next h1 => exact absurd h1 (by decide)
  · rfl

/-! ## Words -/

/-- A word reads, signed, as the class number `c` exactly when it is `c`'s word. -/
theorem toInt_eq_iff_word (w : BitVec 32) (c : Fin 1000) : w.toInt = (c.val : Int) ↔ w = word c := by
  have hc : c.val < 2 ^ 31 := by have := c.isLt; omega
  constructor
  · intro h
    apply BitVec.eq_of_toInt_eq
    rw [h, Predicate.toInt_ofNat_small _ hc]
  · intro h
    rw [h]
    exact Predicate.toInt_ofNat_small _ hc

/-! ## Where an update lands -/

/-- An update lands on operand index `i` exactly when, on every axis, its start plus its window coordinate is
    `i`'s coordinate (in range, then, since `i`'s is). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro e a
      have := h a
      rw [← e]
      simp only
      omega
    · intro e
      funext a
      apply Fin.ext
      have := e a
      simp only
      omega
  · next h =>
    constructor
    · intro e; exact absurd e (by simp)
    · intro e
      exfalso; apply h
      intro a
      have := e a
      have := (i a).isLt
      omega

/-! ### The scatter of a vector of rows into the vector of classes -/

theorem start1 (idx : IVec S65536x1 32) (n : Fin 65536) (a : Fin S1000.rank) :
    scatter_S1000_S65536x1_S65536_n_0_0_1.start (ix1 n) idx a = (idx (ix2 n (0 : Fin 1))).toInt := by
  obtain rfl : a = 0 := Subsingleton.elim _ _
  unfold ScatterDims.start
  rw [dif_pos (show (0 : Fin S1000.rank) ∈ scatter_S1000_S65536x1_S65536_n_0_0_1.scatterDimsToOperandDims from
    List.mem_singleton.mpr rfl)]
  congr 2
  funext b
  refine Fin.ext ?_
  match b with
  | ⟨0, _⟩ => rfl
  | ⟨1, _⟩ => rfl

theorem window1 (n : Fin 65536) (a : Fin S1000.rank) :
    scatter_S1000_S65536x1_S65536_n_0_0_1.window (ix1 n) a = 0 := by
  obtain rfl : a = 0 := Subsingleton.elim _ _
  unfold ScatterDims.window
  rw [dif_neg (fun h => by
    have h' : (0 : Fin S1000.rank) ∈ (List.finRange S1000.rank).filter (· ∉ ([0] : List (Fin S1000.rank))) := h
    have h2 := (List.mem_filter.1 h').2
    simp at h2)]

/-- Row `n`'s update lands on class `c` exactly when row `n` carries class `c`'s label. -/
theorem lands1 (lab : S65536.Idx → BitVec 32) (n : Fin 65536) (c : Fin 1000) :
    scatter_S1000_S65536x1_S65536_n_0_0_1.resultIdx? (ix1 n) (labB lab) = some (ix1 c) ↔ hit lab n c := by
  rw [resultIdx?_eq_some_iff]
  constructor
  · intro h
    have h0 := h 0
    rw [start1, window1, labB_apply] at h0
    exact (toInt_eq_iff_word _ c).1 (by simpa using h0)
  · intro h a
    obtain rfl : a = 0 := Subsingleton.elim _ _
    rw [start1, window1, labB_apply]
    have := (toInt_eq_iff_word _ c).2 h
    simpa using this

/-- THE COUNTING SCATTER AT A CLASS: the operand there plus the updates of the rows that carry the class's label. -/
theorem scatter1_apply (x0 : S1000.Idx → EReal) (lab : S65536.Idx → BitVec 32) (u : S65536.Idx → EReal) (c : Fin 1000) :
    Host.scatterAdd (F := Ideal) (φ := .f32) scatter_S1000_S65536x1_S65536_n_0_0_1 x0 (labB lab) u (ix1 c)
      = x0 (ix1 c) + ∑ n : Fin 65536, if hit lab n c then u (ix1 n) else 0 := by
  have e : Host.scatterAdd (F := Ideal) (φ := .f32) scatter_S1000_S65536x1_S65536_n_0_0_1 x0 (labB lab) u
      = Ideal.hostScatterAdd scatter_S1000_S65536x1_S65536_n_0_0_1 x0 (labB lab) u := rfl
  rw [e]
  unfold Ideal.hostScatterAdd
  refine congrArg (x0 (ix1 c) + ·) ?_
  rw [Finset.sum_filter, ← Equiv.sum_comp (idxEquiv1 (n := 65536)).symm]
  refine Finset.sum_congr rfl fun n _ => ?_
  exact if_congr (lands1 lab n c) rfl rfl

/-! ### The scatter of a batch of rows into the table of classes -/

theorem start2_0 (idx : IVec S65536x1 32) (n : Fin 65536) (a' : Fin 512) :
    scatter_S1000x512_S65536x1_S65536x512_1_0_0_1.start (ix2 n a') idx (0 : Fin 2) = (idx (ix2 n (0 : Fin 1))).toInt := by
  unfold ScatterDims.start
  rw [dif_pos (show (0 : Fin S1000x512.rank) ∈ scatter_S1000x512_S65536x1_S65536x512_1_0_0_1.scatterDimsToOperandDims from
    List.mem_singleton.mpr rfl)]
  congr 2
  funext b
  refine Fin.ext ?_
  match b with
  | ⟨0, _⟩ => rfl
  | ⟨1, _⟩ => rfl

theorem start2_1 (idx : IVec S65536x1 32) (n : Fin 65536) (a' : Fin 512) :
    scatter_S1000x512_S65536x1_S65536x512_1_0_0_1.start (ix2 n a') idx (1 : Fin 2) = 0 := by
  unfold ScatterDims.start
  rw [dif_neg (fun h => by
    have h' : (1 : Fin S1000x512.rank) ∈ ([0] : List (Fin S1000x512.rank)) := h
    simp at h')]

theorem window2_0 (n : Fin 65536) (a' : Fin 512) :
    scatter_S1000x512_S65536x1_S65536x512_1_0_0_1.window (ix2 n a') (0 : Fin 2) = 0 := by
  unfold ScatterDims.window
  rw [dif_neg (fun h => by
    have h' : (0 : Fin S1000x512.rank) ∈ (List.finRange S1000x512.rank).filter (· ∉ ([0] : List (Fin S1000x512.rank))) := h
    have h2 := (List.mem_filter.1 h').2
    simp at h2)]

theorem window2_1 (n : Fin 65536) (a' : Fin 512) :
    scatter_S1000x512_S65536x1_S65536x512_1_0_0_1.window (ix2 n a') (1 : Fin 2) = a'.val := by
  unfold ScatterDims.window
  rw [dif_pos (show (1 : Fin S1000x512.rank) ∈ scatter_S1000x512_S65536x1_S65536x512_1_0_0_1.sKept from by
    show (1 : Fin S1000x512.rank) ∈ (List.finRange S1000x512.rank).filter (· ∉ ([0] : List (Fin S1000x512.rank)))
    decide)]
  rfl

/-- Entry `(n, a')` of the updates lands on entry `(c, a)` of the table exactly when row `n` carries class `c`'s
    label and the feature is the same. -/
theorem lands2 (lab : S65536.Idx → BitVec 32) (n : Fin 65536) (a' : Fin 512) (c : Fin 1000) (a : Fin 512) :
    scatter_S1000x512_S65536x1_S65536x512_1_0_0_1.resultIdx? (ix2 n a') (labB lab) = some (ix2 c a) ↔ hit lab n c ∧ a' = a := by
  rw [resultIdx?_eq_some_iff]
  constructor
  · intro h
    have h0 := h (0 : Fin 2)
    have h1 := h (1 : Fin 2)
    rw [start2_0, window2_0, labB_apply] at h0
    rw [start2_1, window2_1] at h1
    refine ⟨(toInt_eq_iff_word _ c).1 (by simpa using h0), Fin.ext ?_⟩
    have h1' : (0 : Int) + (a'.val : Int) = (a.val : Int) := h1
    omega
  · rintro ⟨h, rfl⟩ b
    match b with
    | ⟨0, _⟩ =>
      show scatter_S1000x512_S65536x1_S65536x512_1_0_0_1.start (ix2 n a') (labB lab) (0 : Fin 2)
        + (scatter_S1000x512_S65536x1_S65536x512_1_0_0_1.window (ix2 n a') (0 : Fin 2) : Int) = (c.val : Int)
      rw [start2_0, window2_0, labB_apply]
      have := (toInt_eq_iff_word _ c).2 h
      simpa using this
    | ⟨1, _⟩ =>
      show scatter_S1000x512_S65536x1_S65536x512_1_0_0_1.start (ix2 n a') (labB lab) (1 : Fin 2)
        + (scatter_S1000x512_S65536x1_S65536x512_1_0_0_1.window (ix2 n a') (1 : Fin 2) : Int) = (a'.val : Int)
      rw [start2_1, window2_1]
      simp

/-- THE SUMMING SCATTER AT A CLASS AND A FEATURE: the operand there plus that feature of the rows that carry the
    class's label. -/
theorem scatter2_apply (x0 : S1000x512.Idx → EReal) (lab : S65536.Idx → BitVec 32) (u : S65536x512.Idx → EReal)
    (c : Fin 1000) (a : Fin 512) :
    Host.scatterAdd (F := Ideal) (φ := .f32) scatter_S1000x512_S65536x1_S65536x512_1_0_0_1 x0 (labB lab) u (ix2 c a)
      = x0 (ix2 c a) + ∑ n : Fin 65536, if hit lab n c then u (ix2 n a) else 0 := by
  have e : Host.scatterAdd (F := Ideal) (φ := .f32) scatter_S1000x512_S65536x1_S65536x512_1_0_0_1 x0 (labB lab) u
      = Ideal.hostScatterAdd scatter_S1000x512_S65536x1_S65536x512_1_0_0_1 x0 (labB lab) u := rfl
  rw [e]
  unfold Ideal.hostScatterAdd
  refine congrArg (x0 (ix2 c a) + ·) ?_
  rw [Finset.sum_filter, sum_idx2]
  refine Finset.sum_congr rfl fun n _ => ?_
  by_cases hn : hit lab n c
  · rw [if_pos hn]
    rw [Finset.sum_congr rfl (fun a' _ => if_congr ((lands2 lab n a' c a).trans (and_iff_right hn)) rfl rfl)]
    rw [Finset.sum_ite_eq' Finset.univ a (fun a' => u (ix2 n a'))]
    exact if_pos (Finset.mem_univ a)
  · rw [if_neg hn]
    exact Finset.sum_eq_zero fun a' _ => if_neg (fun h => hn ((lands2 lab n a' c a).1 h).1)

/-! ## The gather -/

/-- THE GATHER AT A ROW AND A FEATURE: the table's row at the row's start index, read signed and clamped into the
    table, at that feature. -/
theorem gather_apply (t : S1000x512.Idx → EReal) (idx : IVec S65536x1 32) (n : Fin 65536) (a : Fin 512) :
    Host.gather gather_S1000x512_S65536x1_S65536x512_1_0_n_n_0_1_1512 t idx (ix2 n a)
      = t (ix2 (⟨min (idx (ix2 n (0 : Fin 1))).toInt.toNat 999, by omega⟩ : Fin 1000) a) := by
  unfold Host.gather
  congr 1
  funext b
  refine Fin.ext ?_
  have hb : ∀ x : Fin S1000x512.rank, x ∉ gather_S1000x512_S65536x1_S65536x512_1_0_n_n_0_1_1512.operandBatchingDims :=
    fun _ => List.not_mem_nil
  match b with
  | ⟨0, _⟩ =>
    show gather_S1000x512_S65536x1_S65536x512_1_0_n_n_0_1_1512.start (ix2 n a) idx (0 : Fin 2)
      + gather_S1000x512_S65536x1_S65536x512_1_0_n_n_0_1_1512.batchCoord (ix2 n a) (0 : Fin 2)
      + gather_S1000x512_S65536x1_S65536x512_1_0_n_n_0_1_1512.offCoord (ix2 n a) (0 : Fin 2) = _
    rw [GatherDims.batchCoord_eq_zero _ _ _ (hb _),
      GatherDims.offCoord_eq_zero _ _ _ (fun h => ((GatherDims.mem_sKept _ _).mp h).1 (List.mem_singleton.mpr rfl))]
    simp only [Nat.add_zero]
    unfold GatherDims.start
    rw [dif_pos (show (0 : Fin S1000x512.rank) ∈ gather_S1000x512_S65536x1_S65536x512_1_0_n_n_0_1_1512.startIndexMap from
      List.mem_singleton.mpr rfl)]
    have hsi : gather_S1000x512_S65536x1_S65536x512_1_0_n_n_0_1_1512.siIdx (ix2 n a)
        ⟨List.idxOf (0 : Fin S1000x512.rank) gather_S1000x512_S65536x1_S65536x512_1_0_n_n_0_1_1512.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S1000x512_S65536x1_S65536x512_1_0_n_n_0_1_1512.start (ix2 n a) idx (1 : Fin 2)
      + gather_S1000x512_S65536x1_S65536x512_1_0_n_n_0_1_1512.batchCoord (ix2 n a) (1 : Fin 2)
      + gather_S1000x512_S65536x1_S65536x512_1_0_n_n_0_1_1512.offCoord (ix2 n a) (1 : Fin 2) = a.val
    rw [GatherDims.batchCoord_eq_zero _ _ _ (hb _)]
    have hs : gather_S1000x512_S65536x1_S65536x512_1_0_n_n_0_1_1512.start (ix2 n a) idx (1 : Fin 2) = 0 := by
      unfold GatherDims.start
      rw [dif_neg (fun h => by
        have h' : (1 : Fin S1000x512.rank) ∈ ([0] : List (Fin S1000x512.rank)) := h
        simp at h')]
    have ho : gather_S1000x512_S65536x1_S65536x512_1_0_n_n_0_1_1512.offCoord (ix2 n a) (1 : Fin 2) = a.val := by
      unfold GatherDims.offCoord
      rw [dif_pos ((GatherDims.mem_sKept _ _).2 ⟨fun h => by
        have h' : (1 : Fin S1000x512.rank) ∈ ([0] : List (Fin S1000x512.rank)) := h
        simp at h', hb _⟩)]
      rfl
    rw [hs, ho]
    omega

/-- A normalised label at a row that carries class `c`'s label is that label: it is not negative. -/
theorem labNorm_of_hit (lab : S65536.Idx → BitVec 32) (n : Fin 65536) (c : Fin 1000) (h : hit lab n c) :
    labNorm lab (ix1 n) = word c := by
  have hl : lab (ix1 n) = word c := h
  have hc : c.val < 2 ^ 31 := by have := c.isLt; omega
  show Scalar.select (IntOp.cmpi .slt (lab (ix1 n)) 0#32) (lab (ix1 n) + 1000#32) (lab (ix1 n)) = word c
  rw [hl]
  have hz : IntOp.cmpi .slt (word c) 0#32 = 0#1 := by
    apply eq_zero_of_ne_one
    intro h1
    have := (Predicate.slt_ofNat_iff c.val 0 hc (by decide)).1 h1
    omega
  rw [hz, select_zero]

/-- THE GATHER AT A ROW THAT CARRIES CLASS `c`'S LABEL: the table's row `c`. -/
theorem gather_apply_of_hit (t : S1000x512.Idx → EReal) (lab : S65536.Idx → BitVec 32) (n : Fin 65536) (a : Fin 512)
    (c : Fin 1000) (h : hit lab n c) :
    Host.gather gather_S1000x512_S65536x1_S65536x512_1_0_n_n_0_1_1512 t (labB (labNorm lab)) (ix2 n a) = t (ix2 c a) := by
  rw [gather_apply]
  have hc : c.val < 2 ^ 31 := by have := c.isLt; omega
  refine congrArg (fun r : Fin 1000 => t (ix2 r a)) (Fin.ext ?_)
  show min (labB (labNorm lab) (ix2 n (0 : Fin 1))).toInt.toNat 999 = c.val
  rw [labB_apply, labNorm_of_hit lab n c h, Predicate.toInt_ofNat_small _ hc]
  have := c.isLt
  simp only [Int.toNat_natCast]
  omega

end Cert.ReferenceIdeal.RefIdx

end
-- ==== Proof.RefTail.lean ====
/-
  The reference's three results as the shared host lines applied to its own per-class count, mean and variance,
  and those three read at an index: the count of a class is the number of rows that carry its label, the sum the
  sum of those rows, and the variance the sum of their squared deviations from the class mean over the safe count.
-/
import proofs.«419888_j24352464569636_3_alg».proof.Proof.RefRunP
import proofs.«419888_j24352464569636_3_alg».proof.Proof.RefReadP
import proofs.«419888_j24352464569636_3_alg».proof.Proof.RefIndex
import proofs.«419888_j24352464569636_3_alg».proof.Proof.HostTail
import proofs.«419888_j24352464569636_3_alg».proof.Proof.Spec
import proofs.«419888_j24352464569636_3_alg».proof.Proof.LibERealBatchNorm
import Idealize.ShloMosaic.Lib.ValueIdx

noncomputable section

namespace Cert.ReferenceIdeal.RTail

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.RefIdx
open scoped BigOperators

/-- The five broadcast relations of the shared lines, from the reference's facts. -/
theorem bc : Cert.HostTail.Bc :=
  ⟨bcast_S_S1000, bcast_S1000_S1000x1_0, bcast_S1000x1_S1000x512_0_1, bcast_S_S1000x512, bcast_S_S1000x1⟩

/-- The reference's count per class: ones scattered by label into zeros. -/
def cntR (lab : S65536.Idx → BitVec 32) : FVec Ideal S1000 .f32 :=
  Host.scatterAdd (F := Ideal) scatter_S1000_S65536x1_S65536_n_0_0_1
    (broadcastInDim S1000 ![] bcast_S_S1000 (constant (F := Ideal) S_ .f32 0x00000000#32))
    (labB lab)
    (broadcastInDim S65536 ![] bcast_S_S65536 (constant (F := Ideal) S_ .f32 0x3F800000#32))

/-- The reference's sum per class and feature: the features scattered by label into zeros. -/
def sumsR (x : FVec Ideal S65536x512 .f32) (lab : S65536.Idx → BitVec 32) : FVec Ideal S1000x512 .f32 :=
  Host.scatterAdd (F := Ideal) scatter_S1000x512_S65536x1_S65536x512_1_0_0_1
    (broadcastInDim S1000x512 ![] bcast_S_S1000x512 (constant (F := Ideal) S_ .f32 0x00000000#32))
    (labB lab) x

/-- The reference's variance per class and feature: the squared deviations from the gathered class mean,
    scattered by label into zeros, over the safe count. -/
def varR (x : FVec Ideal S65536x512 .f32) (lab : S65536.Idx → BitVec 32) : FVec Ideal S1000x512 .f32 :=
  Host.divf (F := Ideal)
    (Host.scatterAdd (F := Ideal) scatter_S1000x512_S65536x1_S65536x512_1_0_0_1
      (broadcastInDim S1000x512 ![] bcast_S_S1000x512 (constant (F := Ideal) S_ .f32 0x00000000#32))
      (labB lab)
      (mulf (F := Ideal)
        (subf (F := Ideal) x (Host.gather gather_S1000x512_S65536x1_S65536x512_1_0_n_n_0_1_1512
          (Cert.HostTail.ave (F := Ideal) bc (cntR lab) (sumsR x lab)) (labB (labNorm lab))))
        (subf (F := Ideal) x (Host.gather gather_S1000x512_S65536x1_S65536x512_1_0_n_n_0_1_1512
          (Cert.HostTail.ave (F := Ideal) bc (cntR lab) (sumsR x lab)) (labB (labNorm lab))))))
    (Cert.HostTail.asB (F := Ideal) bc (cntR lab))

/-! ## The three results -/

set_option maxRecDepth 8192 in
/-- The first result: the updated covariance. -/
theorem res56 (m : (ℓ : Loc nD τ sig) → Buf (Elt Ideal) ℓ) (c : Dev nD) :
    Cert.ReferenceIdeal.ValueP.res_main_v56 (F := Ideal) m c
      = Cert.HostTail.newCov (F := Ideal) bc (cntR (m ((c.tc : Thread nD τ).loc main_arg1)))
          (Cert.HostTail.ave (F := Ideal) bc (cntR (m ((c.tc : Thread nD τ).loc main_arg1)))
            (sumsR (m ((c.tc : Thread nD τ).loc main_arg0)) (m ((c.tc : Thread nD τ).loc main_arg1))))
          (varR (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) := by
  unfold Cert.ReferenceIdeal.ValueP.res_main_v56
  rfl

set_option maxRecDepth 8192 in
/-- The second result: the updated mean. -/
theorem res63 (m : (ℓ : Loc nD τ sig) → Buf (Elt Ideal) ℓ) (c : Dev nD) :
    Cert.ReferenceIdeal.ValueP.res_main_v63 (F := Ideal) m c
      = Cert.HostTail.newMean (F := Ideal) bc (cntR (m ((c.tc : Thread nD τ).loc main_arg1)))
          (Cert.HostTail.ave (F := Ideal) bc (cntR (m ((c.tc : Thread nD τ).loc main_arg1)))
            (sumsR (m ((c.tc : Thread nD τ).loc main_arg0)) (m ((c.tc : Thread nD τ).loc main_arg1))))
          (m ((c.tc : Thread nD τ).loc main_arg3)) (m ((c.tc : Thread nD τ).loc main_arg4)) := by
  unfold Cert.ReferenceIdeal.ValueP.res_main_v63
  rfl

/-- The third result, as the run states it: the updated count. -/
theorem res64 (m : (ℓ : Loc nD τ sig) → Buf (Elt Ideal) ℓ) (c : Dev nD) :
    addf (F := Ideal) (m ((c.tc : Thread nD τ).loc main_arg4))
        (Host.scatterAdd (F := Ideal) scatter_S1000_S65536x1_S65536_n_0_0_1
          (broadcastInDim S1000 ![] bcast_S_S1000 (constant (F := Ideal) S_ .f32 0x00000000#32))
          (broadcastInDim S65536x1 ![0] bcast_S65536_S65536x1_0 (m ((c.tc : Thread nD τ).loc main_arg1)))
          (broadcastInDim S65536 ![] bcast_S_S65536 (constant (F := Ideal) S_ .f32 0x3F800000#32)))
      = Cert.HostTail.newAmount (F := Ideal) (cntR (m ((c.tc : Thread nD τ).loc main_arg1)))
          (m ((c.tc : Thread nD τ).loc main_arg4)) := rfl

/-! ## The counts, the sums and the variance at an index -/

/-- The splat of the zero word reads zero everywhere. -/
theorem zeros_apply {s : Shape} (h : S_.BroadcastsInDim s (![] : Fin 0 → Fin s.rank)) (i : s.Idx) :
    broadcastInDim s ![] h (constant (F := Ideal) S_ .f32 0x00000000#32) i = 0 :=
  Cert.ERealBN.ofBits_zero

/-- The splat of the word of one reads one everywhere. -/
theorem ones_apply {s : Shape} (h : S_.BroadcastsInDim s (![] : Fin 0 → Fin s.rank)) (i : s.Idx) :
    broadcastInDim s ![] h (constant (F := Ideal) S_ .f32 0x3F800000#32) i = 1 :=
  Cert.ERealBN.ofBits_one.trans EReal.coe_one

/-- The host's quotient at an index is the quotient of the elements. -/
theorem hostDivf_apply {s : Shape} (p q : FVec Ideal s .f32) (i : s.Idx) :
    Host.divf (F := Ideal) p q i = Ideal.div (p i) (q i) := rfl

/-- The reference's count at class `c`: the number of rows that carry its label. -/
theorem cntR_apply (lab : S65536.Idx → BitVec 32) (c : Fin 1000) : cntR lab (ix1 c) = Cert.Spec.cnt lab c := by
  unfold cntR
  rw [scatter1_apply, zeros_apply, zero_add]
  unfold Cert.Spec.cnt
  refine Finset.sum_congr rfl fun n _ => ?_
  rw [ones_apply]

/-- The reference's sum at class `c` and feature `a`. -/
theorem sumsR_apply (x : FVec Ideal S65536x512 .f32) (lab : S65536.Idx → BitVec 32) (c : Fin 1000) (a : Fin 512) :
    sumsR x lab (ix2 c a) = Cert.Spec.sums x lab c a := by
  unfold sumsR
  rw [scatter2_apply, zeros_apply, zero_add]
  rfl

/-- The reference's variance at class `c` and feature `a`: the squared deviations of the class's rows from the
    class mean, summed, over the safe count. -/
theorem varR_apply (x : FVec Ideal S65536x512 .f32) (lab : S65536.Idx → BitVec 32) (c : Fin 1000) (a : Fin 512) :
    varR x lab (ix2 c a)
      = Ideal.div (Cert.Spec.devsq x lab (Cert.HostTail.ave (F := Ideal) bc (cntR lab) (sumsR x lab) (ix2 c a)) c a)
          (Cert.HostTail.asB (F := Ideal) bc (cntR lab) (ix2 c a)) := by
  unfold varR
  rw [hostDivf_apply, scatter2_apply, zeros_apply, zero_add]
  refine congrArg (fun s => Ideal.div s (Cert.HostTail.asB (F := Ideal) bc (cntR lab) (ix2 c a))) ?_
  unfold Cert.Spec.devsq
  refine Finset.sum_congr rfl fun n _ => ?_
  by_cases h : Cert.Spec.hit lab n c
  · rw [if_pos h, if_pos h]
    show (x (ix2 n a) - _) * (x (ix2 n a) - _) = _
    rw [gather_apply_of_hit _ lab n a c h]
  · rw [if_neg h, if_neg h]

end Cert.ReferenceIdeal.RTail

end
-- ==== Proof.HostTailIdeal.lean ====
/-
  The shared host tail read at the extended reals, entry by entry: the safe divisor is the count where the
  count is not zero and one where it is; the class mean is the sum over that divisor; the one-pass variance
  is the mean of the squares minus the square of the mean, clamped below at zero.
-/
import proofs.«419888_j24352464569636_3_alg».proof.Proof.HostTail
import proofs.«419888_j24352464569636_3_alg».proof.Proof.LibERealBatchNorm
import Idealize.ShloMosaic.PureOps.Ideal.Laws
import Idealize.ShloMosaic.Lib.ValueIdx

noncomputable section

namespace Cert.HostTail

open Idealize.ShloMosaic Idealize.ShloMosaic.ValueIdx

/-! ## The three broadcasts at an entry -/

/-- A rank-zero value broadcast to any shape is that value at every entry. -/
theorem bcast_s_apply {α : Type} {t : Shape} (h : S_.BroadcastsInDim t (![] : Fin 0 → Fin t.rank)) (x : S_.Idx → α)
    (j : t.Idx) : broadcastInDim t ![] h x j = x ix0 :=
  congrArg x (funext fun a => a.elim0)

/-- A vector of 1000 entries read as a column: entry (c, 0) is entry c. -/
theorem bcast_c_c1_apply {α : Type} (h : SC.BroadcastsInDim SC1 (![0] : Fin 1 → Fin SC1.rank)) (x : SC.Idx → α)
    (c : Fin 1000) (z : Fin 1) : broadcastInDim SC1 ![0] h x (ix2 c z) = x (ix1 c) :=
  congrArg x (funext fun a => match a with | ⟨0, _⟩ => rfl)

/-- A column broadcast along the 512 features: entry (c, a) is the column's entry (c, 0). -/
theorem bcast_c1_ca_apply {α : Type} (h : SC1.BroadcastsInDim SCA (![0, 1] : Fin 2 → Fin SCA.rank)) (x : SC1.Idx → α)
    (c : Fin 1000) (a : Fin 512) : broadcastInDim SCA ![0, 1] h x (ix2 c a) = x (ix2 c (0 : Fin 1)) :=
  congrArg x (funext fun b => match b with | ⟨0, _⟩ => rfl | ⟨1, _⟩ => rfl)

/-- A selection on an equality test of extended reals is the if-then-else on the equality. -/
theorem select_cmp_oeq {α : Type} (x y : EReal) (p q : α) :
    Scalar.select (Ideal.cmp .oeq x y) p q = if x = y then p else q := by
  unfold Scalar.select Ideal.cmp
  by_cases hxy : x = y <;> simp [hxy]

/-! ## The safe divisor, the mean and the variance at an entry -/

/-- The safe divisor's column at (c, 0): one where the count is zero, else the count. -/
theorem as1_apply (h : Bc) (cnt : FVec Ideal SC .f32) (c : Fin 1000) (z : Fin 1) :
    as1 (F := Ideal) h cnt (ix2 c z) = (if cnt (ix1 c) = 0 then ((1 : ℝ) : EReal) else cnt (ix1 c)) := by
  unfold as1
  rw [bcast_c_c1_apply]
  show Scalar.select (Ideal.cmp .oeq (cnt (ix1 c)) (Ideal.ofBits .f32 0x00000000#32)) (Ideal.ofBits .f32 0x3F800000#32)
      (cnt (ix1 c)) = _
  rw [Cert.ERealBN.ofBits_zero, Cert.ERealBN.ofBits_one, select_cmp_oeq]

/-- The safe divisor at (c, a): one where the count of class c is zero, else that count. -/
theorem asB_apply (h : Bc) (cnt : FVec Ideal SC .f32) (c : Fin 1000) (a : Fin 512) :
    asB (F := Ideal) h cnt (ix2 c a) = (if cnt (ix1 c) = 0 then ((1 : ℝ) : EReal) else cnt (ix1 c)) := by
  unfold asB
  rw [bcast_c1_ca_apply, as1_apply]

/-- The class mean at (c, a): the sum over the safe divisor. -/
theorem ave_apply (h : Bc) (cnt : FVec Ideal SC .f32) (sums : FVec Ideal SCA .f32) (c : Fin 1000) (a : Fin 512) :
    ave (F := Ideal) h cnt sums (ix2 c a) = Ideal.div (sums (ix2 c a)) (asB (F := Ideal) h cnt (ix2 c a)) := rfl

/-- The one-pass variance at (c, a): the sum of squares over the safe divisor, less the square of the mean,
    clamped below at zero. -/
theorem varK_apply (h : Bc) (cnt : FVec Ideal SC .f32) (sums sumsq : FVec Ideal SCA .f32) (c : Fin 1000) (a : Fin 512) :
    varK (F := Ideal) h cnt sums sumsq (ix2 c a)
      = max (Ideal.div (sumsq (ix2 c a)) (asB (F := Ideal) h cnt (ix2 c a))
              - ave (F := Ideal) h cnt sums (ix2 c a) * ave (F := Ideal) h cnt sums (ix2 c a)) 0 := by
  show max (Ideal.div (sumsq (ix2 c a)) (asB (F := Ideal) h cnt (ix2 c a))
              - ave (F := Ideal) h cnt sums (ix2 c a) * ave (F := Ideal) h cnt sums (ix2 c a))
          (Ideal.ofBits .f32 0x00000000#32) = _
  rw [Cert.ERealBN.ofBits_zero]

end Cert.HostTail

end
-- ==== Proof.LibSegmentMoments.lean ====
/- Sums over the rows of one class, in the extended reals.

   A sum of `if p n then g n else 0` over a finite index type is the sum of `g` over the rows that satisfy
   `p`; the sum of the indicators is the number of those rows. From this, for real-valued data, the clamped
   one-pass variance of a class (the mean of the squares minus the square of the mean, taken against zero,
   with the divisor replaced by one when the class is empty) is the mean of the squared deviations from the
   class mean. An empty class gives zero on both sides; a class with rows gives the variance law of a finite
   family, whose value is a nonnegative real, so the clamp does nothing.

   Also here: an indicator as a factor, and the regrouping of a sum over 65536 rows as a sum over 2 halves of
   32 tiles of 1024 rows. -/
import Idealize.ShloMosaic.PureOps.Ideal
import Mathlib.Data.EReal.Basic
import Mathlib.Data.EReal.Operations
import Mathlib.Data.EReal.Inv
import Mathlib.Data.Fintype.Card
import Mathlib.Data.Fintype.BigOperators
import Mathlib.Logic.Equiv.Fin.Basic
import Mathlib.Algebra.BigOperators.Group.Finset.Basic
import Mathlib.Tactic.Ring
import Mathlib.Tactic.Linarith
import proofs.«419888_j24352464569636_3_alg».proof.Proof.LibERealBatchNorm

noncomputable section

namespace Cert.SegMom

open Idealize.ShloMosaic Cert.ERealBN
open scoped BigOperators

/-- An indicator as a factor selects its cofactor. -/
theorem ind_mul (b : Prop) [Decidable b] (v : EReal) :
    (if b then (1 : EReal) else 0) * v = if b then v else 0 := by
  by_cases h : b
  · rw [if_pos h, if_pos h, one_mul]
  · rw [if_neg h, if_neg h, zero_mul]

/-! Regrouping a sum over a product of ranges. -/

/-- A sum over `A * B` consecutive numbers, read as `A` blocks of `B`. -/
private theorem sum_fin_mul (A B N : ℕ) (h : A * B = N) (g : Fin N → EReal)
    (hb : ∀ (a : Fin A) (b : Fin B), B * a.val + b.val < N) :
    ∑ a : Fin A, ∑ b : Fin B, g ⟨B * a.val + b.val, hb a b⟩ = ∑ n : Fin N, g n := by
  subst h
  rw [← Fintype.sum_prod_type' (fun (a : Fin A) (b : Fin B) => g ⟨B * a.val + b.val, hb a b⟩)]
  refine Fintype.sum_equiv finProdFinEquiv _ _ ?_
  rintro ⟨a, b⟩
  refine congrArg g (Fin.ext ?_)
  simp only [finProdFinEquiv_apply_val]
  exact Nat.add_comm _ _

/-- The 65536 rows are 2 halves of 32 tiles of 1024 rows. -/
theorem sum_regroup (f : Fin 65536 → EReal) :
    ∑ q : Fin 2, ∑ i : Fin 32, ∑ k : Fin 1024,
        f ⟨1024 * (32 * q.val + i.val) + k.val, by
          have := q.isLt; have := i.isLt; have := k.isLt; omega⟩
      = ∑ n : Fin 65536, f n := by
  have h1 := sum_fin_mul 64 1024 65536 (by norm_num) f
    (fun a b => by have := a.isLt; have := b.isLt; omega)
  have h2 := sum_fin_mul 2 32 64 (by norm_num)
    (fun b : Fin 64 => ∑ k : Fin 1024, f ⟨1024 * b.val + k.val, by
      have := b.isLt; have := k.isLt; omega⟩)
    (fun a b => by have := a.isLt; have := b.isLt; omega)
  exact h2.trans h1

/-! Sums over the rows of a class. -/

/-- A sum of `if p n then g n else 0` is the sum of `g` over the rows that satisfy `p`. -/
theorem sum_ite_eq_sum_subtype {ι : Type*} [Fintype ι] (p : ι → Prop) [DecidablePred p] (g : ι → EReal) :
    (∑ n, if p n then g n else 0) = ∑ m : {n // p n}, g m.val := by
  rw [← Finset.sum_filter]
  exact Finset.sum_subtype (Finset.univ.filter p) (by simp) g

/-- The sum of the indicators is the number of rows that satisfy `p`. -/
theorem count_eq_card {ι : Type*} [Fintype ι] (p : ι → Prop) [DecidablePred p] :
    (∑ n, if p n then (1 : EReal) else 0) = ((Fintype.card {n // p n} : ℝ) : EReal) := by
  rw [sum_ite_eq_sum_subtype p (fun _ => (1 : EReal)), ← EReal.coe_one, coe_sum]
  simp

theorem cnt_isReal {ι : Type*} [Fintype ι] (p : ι → Prop) [DecidablePred p] :
    IsReal (∑ n, if p n then (1 : EReal) else 0) := by
  rw [count_eq_card]; exact IsReal.coe _

theorem sums_isReal {ι : Type*} [Fintype ι] (p : ι → Prop) [DecidablePred p] (x : ι → EReal)
    (hx : ∀ n, IsReal (x n)) : IsReal (∑ n, if p n then x n else 0) := by
  refine IsReal.sum _ _ (fun n _ => ?_)
  by_cases h : p n
  · rw [if_pos h]; exact hx n
  · rw [if_neg h]; exact IsReal.zero

/-- The count is nonzero exactly when some row satisfies `p`. -/
theorem count_ne_zero_iff {ι : Type*} [Fintype ι] (p : ι → Prop) [DecidablePred p] :
    (∑ n, if p n then (1 : EReal) else 0) ≠ 0 ↔ ∃ n, p n := by
  rw [count_eq_card, EReal.coe_ne_zero, Nat.cast_ne_zero, ← Nat.pos_iff_ne_zero, Fintype.card_pos_iff,
    nonempty_subtype]

/-! The variance bridge. -/

/-- Zero divided by the real one is zero. -/
private theorem div_zero_one : Ideal.div 0 ((1 : ℝ) : EReal) = 0 := by
  rw [Ideal.div_coe one_ne_zero, zero_mul]

theorem var_bridge {ι : Type*} [Fintype ι] (p : ι → Prop) [DecidablePred p] (x : ι → EReal)
    (hx : ∀ n, Cert.ERealBN.IsReal (x n)) (as : EReal)
    (h0 : (∑ n, if p n then (1 : EReal) else 0) = 0 → as = ((1 : ℝ) : EReal))
    (h1 : (∑ n, if p n then (1 : EReal) else 0) ≠ 0 → as = ∑ n, if p n then (1 : EReal) else 0) :
    max (Ideal.div (∑ n, if p n then x n * x n else 0) as
          - Ideal.div (∑ n, if p n then x n else 0) as * Ideal.div (∑ n, if p n then x n else 0) as) 0
      = Ideal.div (∑ n, if p n then (x n - Ideal.div (∑ n, if p n then x n else 0) as)
          * (x n - Ideal.div (∑ n, if p n then x n else 0) as) else 0) as := by
  have hcnt := count_eq_card p
  have hc : ∀ m : {n // p n}, IsReal (x m.val) := fun m => hx m.val
  rw [sum_ite_eq_sum_subtype p (fun n => x n * x n), sum_ite_eq_sum_subtype p x,
    sum_ite_eq_sum_subtype p (fun n => (x n - Ideal.div (∑ m : {n // p n}, x m.val) as)
      * (x n - Ideal.div (∑ m : {n // p n}, x m.val) as))]
  by_cases hz : Fintype.card {n // p n} = 0
  · -- no row of the class: every sum is empty and the divisor is one
    have hempty : IsEmpty {n // p n} := Fintype.card_eq_zero_iff.mp hz
    have has : as = ((1 : ℝ) : EReal) := h0 (by rw [hcnt, hz, Nat.cast_zero, EReal.coe_zero])
    rw [has, Finset.sum_of_isEmpty, Finset.sum_of_isEmpty, Finset.sum_of_isEmpty, div_zero_one, mul_zero,
      sub_zero, max_self]
  · -- the class has rows: the variance law, whose value is nonnegative
    have hpos : (0 : ℝ) < (Fintype.card {n // p n} : ℝ) := by
      exact_mod_cast Nat.pos_of_ne_zero hz
    have has : as = ((Fintype.card {n // p n} : ℝ) : EReal) := by
      rw [← hcnt]; exact h1 (by rw [hcnt, EReal.coe_ne_zero]; exact hpos.ne')
    rw [has, var_eq (fun m : {n // p n} => x m.val) hc _ rfl hpos]
    exact max_eq_left (var_isReal_nonneg (fun m : {n // p n} => x m.val) hc _ hpos).2

end Cert.SegMom

end
-- ==== Proof.Bridge.lean ====
/-
  The kernel's accumulators against the shared per-class sums. The batch of 65536 rows is two halves of 32
  tiles of 1024 rows; each core's slab ends at the sum of its 32 tiles' contributions, the host adds the two
  slabs, and regrouping the double sum gives the sum over the whole batch. From the three sums the host's
  one-pass variance, on real-valued features, is the mean of the squared deviations from the class mean.
-/
import proofs.«419888_j24352464569636_3_alg».proof.Proof.Spec
import proofs.«419888_j24352464569636_3_alg».proof.Proof.SpecAcc
import proofs.«419888_j24352464569636_3_alg».proof.Proof.HostTail
import proofs.«419888_j24352464569636_3_alg».proof.Proof.HostTailIdeal
import proofs.«419888_j24352464569636_3_alg».proof.Proof.KI.Tail
import proofs.«419888_j24352464569636_3_alg».proof.Proof.LibSegmentMoments
import proofs.«419888_j24352464569636_3_alg».proof.Proof.LibERealBatchNorm

noncomputable section

namespace Cert.Bridge

open Cert.Spec Cert.ERealBN Cert.KernelIdeal.KTail
open Idealize.ShloMosaic Idealize.ShloMosaic.ValueIdx
open scoped BigOperators

/-! ## A sum over the batch, tile by tile -/

/-- Tile number `b`'s share of a sum over the rows of the batch (nothing beyond the 64 tiles). -/
def part (g : Fin 65536 → EReal) (b : ℕ) : EReal :=
  if h : b < 64 then ∑ k : Fin 1024, g (row ⟨b, h⟩ k) else 0

/-- The shares of tiles 0 to 31 and of tiles 32 to 63 add up to the sum over the whole batch. -/
theorem halves (g : Fin 65536 → EReal) :
    (∑ i ∈ Finset.range 32, part g (32 * (0 : Fin 2).val + i))
        + (∑ i ∈ Finset.range 32, part g (32 * (1 : Fin 2).val + i))
      = ∑ n : Fin 65536, g n := by
  rw [← Cert.SegMom.sum_regroup g, Fin.sum_univ_two, Finset.sum_range, Finset.sum_range]
  congr 1

/-! ## One tile's contributions as shares of the batch sums -/

theorem pc_eq (lab : SL.Idx → BitVec 32) (c : Fin 1000) (b : ℕ) :
    pc lab c b = part (fun n => if hit lab n c then (1 : EReal) else 0) b := by
  unfold pc part
  by_cases h : b < 64
  · rw [dif_pos h, dif_pos h]; rfl
  · rw [dif_neg h, dif_neg h]

theorem ps_eq (x : SX.Idx → EReal) (lab : SL.Idx → BitVec 32) (c : Fin 1000) (a : Fin 512) (b : ℕ) :
    ps x lab c a b = part (fun n => if hit lab n c then x (ix2 n a) else 0) b := by
  unfold ps part
  by_cases h : b < 64
  · rw [dif_pos h, dif_pos h]
    exact Finset.sum_congr rfl (fun k _ => Cert.SegMom.ind_mul _ _)
  · rw [dif_neg h, dif_neg h]

theorem pq_eq (x : SX.Idx → EReal) (lab : SL.Idx → BitVec 32) (c : Fin 1000) (a : Fin 512) (b : ℕ) :
    pq x lab c a b = part (fun n => if hit lab n c then x (ix2 n a) * x (ix2 n a) else 0) b := by
  unfold pq part
  by_cases h : b < 64
  · rw [dif_pos h, dif_pos h]
    exact Finset.sum_congr rfl (fun k _ => Cert.SegMom.ind_mul _ _)
  · rw [dif_neg h, dif_neg h]

/-! ## The summed slabs are the batch sums -/

/-- The two cores' counts of class `c` add up to the number of rows of the batch that carry its label. -/
theorem cnt_eq (lab : SL.Idx → BitVec 32) (c : Fin 1000) :
    cntK (F := Ideal) (slabCnt lab) (ix1 c) = Spec.cnt lab c := by
  rw [cntK_apply]
  show (∑ i ∈ Finset.range 32, pc lab c (32 * (0 : Fin 2).val + i))
      + (∑ i ∈ Finset.range 32, pc lab c (32 * (1 : Fin 2).val + i)) = _
  simp only [pc_eq]
  exact halves _

/-- The two cores' sums of feature `a` over class `c` add up to the sum over the batch. -/
theorem sums_eq (x : SX.Idx → EReal) (lab : SL.Idx → BitVec 32) (c : Fin 1000) (a : Fin 512) :
    sumsK (F := Ideal) (slabSum x lab) (ix2 c a) = Spec.sums x lab c a := by
  rw [sumsK_apply]
  show (∑ i ∈ Finset.range 32, ps x lab c a (32 * (0 : Fin 2).val + i))
      + (∑ i ∈ Finset.range 32, ps x lab c a (32 * (1 : Fin 2).val + i)) = _
  simp only [ps_eq]
  exact halves _

/-- The two cores' sums of squares of feature `a` over class `c` add up to the sum over the batch. -/
theorem sumsq_eq (x : SX.Idx → EReal) (lab : SL.Idx → BitVec 32) (c : Fin 1000) (a : Fin 512) :
    sumsK (F := Ideal) (slabSq x lab) (ix2 c a) = Spec.sumsq x lab c a := by
  rw [sumsK_apply]
  show (∑ i ∈ Finset.range 32, pq x lab c a (32 * (0 : Fin 2).val + i))
      + (∑ i ∈ Finset.range 32, pq x lab c a (32 * (1 : Fin 2).val + i)) = _
  simp only [pq_eq]
  exact halves _

/-! ## The batch sums of real data are real -/

theorem cnt_real (lab : SL.Idx → BitVec 32) (c : Fin 1000) : IsReal (Spec.cnt lab c) :=
  Cert.SegMom.cnt_isReal (fun n => hit lab n c)

theorem sums_real (x : SX.Idx → EReal) (lab : SL.Idx → BitVec 32) (hx : ∀ i, IsReal (x i)) (c : Fin 1000)
    (a : Fin 512) : IsReal (Spec.sums x lab c a) :=
  Cert.SegMom.sums_isReal (fun n => hit lab n c) (fun n => x (ix2 n a)) (fun n => hx _)

/-! ## The one-pass variance is the mean squared deviation -/

/-- On real-valued features, the host's clamped one-pass variance of class `c` at feature `a`, formed from the
    batch count, sum and sum of squares, is the sum of the squared deviations from the class mean over the safe
    divisor. -/
theorem var_eq (x : SX.Idx → EReal) (lab : SL.Idx → BitVec 32) (hx : ∀ i, IsReal (x i)) (h : Cert.HostTail.Bc)
    (cntv : FVec Ideal Cert.HostTail.SC .f32) (sumsv sumsqv : FVec Ideal Cert.HostTail.SCA .f32)
    (hc : ∀ c : Fin 1000, cntv (ix1 c) = Spec.cnt lab c)
    (hs : ∀ (c : Fin 1000) (a : Fin 512), sumsv (ix2 c a) = Spec.sums x lab c a)
    (hq : ∀ (c : Fin 1000) (a : Fin 512), sumsqv (ix2 c a) = Spec.sumsq x lab c a)
    (c : Fin 1000) (a : Fin 512) :
    Cert.HostTail.varK (F := Ideal) h cntv sumsv sumsqv (ix2 c a)
      = Ideal.div (Spec.devsq x lab (Cert.HostTail.ave (F := Ideal) h cntv sumsv (ix2 c a)) c a)
          (Cert.HostTail.asB (F := Ideal) h cntv (ix2 c a)) := by
  rw [Cert.HostTail.varK_apply, Cert.HostTail.ave_apply, Cert.HostTail.asB_apply, hc, hs, hq]
  exact Cert.SegMom.var_bridge (fun n => hit lab n c) (fun n => x (ix2 n a)) (fun n => hx _)
    (if Spec.cnt lab c = 0 then ((1 : ℝ) : EReal) else Spec.cnt lab c) (fun h0 => if_pos h0) (fun h1 => if_neg h1)

end Cert.Bridge

end
-- ==== Proof.Finite.lean ====
/-
  The precondition read back: every float input of the kernel is a real number.

  The printed predicate compares the absolute value of each float entry with +∞ (strictly below), takes the
  conjunction of all entries of each array, and conjoins the four results. An extended real whose absolute
  value, max x (-x), lies strictly below +∞ is neither +∞ nor -∞, so it is a real. The integer labels are
  not constrained by the predicate and nothing is said of them here.
-/
import proofs.«419888_j24352464569636_3_alg».proof.Defs
import proofs.«419888_j24352464569636_3_alg».proof.Proof.LibERealBatchNorm
import proofs.«419888_j24352464569636_3_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Idealize.ShloMosaic.TcCoe Idealize.SL.Sem
open Cert.ERealBN

/-- The scalar shape has one index. -/
instance subsingleton_S_ : Subsingleton Cert.Pre_finite_inputs.S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- One bit made from a decision is 1 exactly when the decision is true. -/
theorem ofBool_eq_one (b : Bool) : BitVec.ofBool b = 1#1 ↔ b = true := by cases b <;> decide

/-- An extended real whose absolute value max x (-x) is strictly below +∞ is a real number:
    at +∞ the maximum is +∞, at -∞ the negation is +∞, and neither is below +∞. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have h' : Ideal.cmp .olt (max x (-x)) (Ideal.ofBits .f32 0x7F800000#32) = 1#1 := h
  rw [inf_eq_top] at h'
  unfold Ideal.cmp at h'
  rw [ofBool_eq_one] at h'
  have hlt : max x (-x) < ⊤ := of_decide_eq_true h'
  induction x using EReal.rec with
  | bot => simp at hlt
  | coe r => exact ⟨r, rfl⟩
  | top => simp at hlt

/-- THE PRECONDITION DECODED: where the printed predicate is all ones, every entry of the four float inputs
    is a real number. -/
theorem finite_of_pre [hP : Cert.Pre_finite_inputs.Facts]
    (a0 : FVec Ideal Cert.Pre_finite_inputs.S65536x512 .f32) (a1 : IVec Cert.Pre_finite_inputs.S65536 32)
    (a2 a3 : FVec Ideal Cert.Pre_finite_inputs.S1000x512 .f32) (a4 : FVec Ideal Cert.Pre_finite_inputs.S1000 .f32)
    (h : Cert.Pre_finite_inputs.fn (F := Ideal) a0 a1 a2 a3 a4 = fun _ => 1#1) :
    (∀ i, IsReal (a0 i)) ∧ (∀ i, IsReal (a2 i)) ∧ (∀ i, IsReal (a3 i)) ∧ (∀ i, IsReal (a4 i)) := by
  have e := congrFun h ix0
  dsimp only [Cert.Pre_finite_inputs.fn, Cert.Pre_finite_inputs.fn_part1] at e
  obtain ⟨e012, e4⟩ := IntOp.andi_eq_one.1 (show IntOp.andi _ _ = 1#1 from e)
  obtain ⟨e01, e3⟩ := IntOp.andi_eq_one.1 (show IntOp.andi _ _ = 1#1 from e012)
  obtain ⟨e0, e2⟩ := IntOp.andi_eq_one.1 (show IntOp.andi _ _ = 1#1 from e01)
  refine ⟨fun i => ?_, fun i => ?_, fun i => ?_, fun i => ?_⟩
  · exact isReal_of_abs_lt_inf _ (Host.reduce_andi_all _ _ _ _ _ e0 i)
  · exact isReal_of_abs_lt_inf _ (Host.reduce_andi_all _ _ _ _ _ e2 i)
  · exact isReal_of_abs_lt_inf _ (Host.reduce_andi_all _ _ _ _ _ e3 i)
  · exact isReal_of_abs_lt_inf _ (Host.reduce_andi_all _ _ _ _ _ e4 i)

/-- The same over a launch memory: where the kernel's precondition holds of the memory, on every device each
    entry of the four float argument arrays is a real number. -/
theorem finite_of_Pre_KernelIdeal [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) :=
  finite_of_pre _ _ _ _ _ (h c)

end Cert.Finite

end
-- ==== Proof.Equal.lean ====
/-
  The two programs' results are equal. Both apply one host tail to a per-class count, mean and variance. The
  kernel's count and sum are the specification's (the two cores' 32 tiles each regroup to the whole batch); so
  are the reference's (its accumulating scatters drop the rows whose label is no class, as the kernel's
  zero-or-one matrix does). The variances differ in form: the kernel takes the mean of the squares minus the
  square of the mean, clamped at zero; the reference the mean of the squared deviations. On finite features
  the two agree entry by entry, and with no row in a class both are zero.
-/
import proofs.«419888_j24352464569636_3_alg».proof.Proof.KI.Results
import proofs.«419888_j24352464569636_3_alg».proof.Proof.RefTail
import proofs.«419888_j24352464569636_3_alg».proof.Proof.Bridge
import proofs.«419888_j24352464569636_3_alg».proof.Proof.Finite

noncomputable section

namespace Cert.Equal

open Idealize.ShloMosaic Idealize.ShloMosaic.TcCoe Idealize.ShloMosaic.ValueIdx Idealize.SL.Sem
open Cert.Spec Cert.ERealBN
open Cert.KernelIdeal.Val Cert.KernelIdeal.KTail Cert.ReferenceIdeal.RTail

section
variable (x : SX.Idx → EReal) (lab : SL.Idx → BitVec 32)

/-- The kernel's count is the reference's. -/
theorem cnt_eq : cntK (F := Ideal) (slabCnt lab) = cntR lab := by
  funext j
  obtain ⟨c, rfl⟩ : ∃ c : Fin 1000, j = ix1 c := ⟨j 0, eq_ix1 j⟩
  exact (Cert.Bridge.cnt_eq lab c).trans (cntR_apply lab c).symm

/-- The kernel's sum is the reference's. -/
theorem sums_eq : sumsK (F := Ideal) (slabSum x lab) = sumsR x lab := by
  funext j
  obtain ⟨c, a, rfl⟩ : ∃ (c : Fin 1000) (a : Fin 512), j = ix2 c a := ⟨j 0, j 1, eq_ix2 j⟩
  exact (Cert.Bridge.sums_eq x lab c a).trans (sumsR_apply x lab c a).symm

/-- On finite features the kernel's clamped variance is the reference's mean squared deviation. -/
theorem var_eq (hx : ∀ i, IsReal (x i)) :
    Cert.HostTail.varK (F := Ideal) Cert.KernelIdeal.KTail.bc (cntK (F := Ideal) (slabCnt lab)) (sumsK (F := Ideal) (slabSum x lab)) (sumsK (F := Ideal) (slabSq x lab))
      = varR x lab := by
  funext j
  obtain ⟨c, a, rfl⟩ : ∃ (c : Fin 1000) (a : Fin 512), j = ix2 c a := ⟨j 0, j 1, eq_ix2 j⟩
  rw [Cert.Bridge.var_eq x lab hx Cert.KernelIdeal.KTail.bc _ _ _ (Cert.Bridge.cnt_eq lab) (Cert.Bridge.sums_eq x lab) (Cert.Bridge.sumsq_eq x lab) c a,
    varR_apply, cnt_eq lab, sums_eq x lab]
end

end Cert.Equal

end
-- ==== Proof.lean ====
/-
  The certificate of the per-class moment kernel against its reference.

  The kernel streams the batch once, tile by tile, on two cores: each grid step turns the tile's labels into a
  zero-or-one matrix (class by row) and adds to three accumulators the matrix's row sums (the counts), its
  product with the tile's features (the sums) and with their squares (the sums of squares). The host adds the
  two cores' slabs, divides by the count (by one for an empty class) and takes the variance as the mean of the
  squares minus the square of the mean, clamped at zero. The reference computes the counts and the sums by
  accumulating scatters over the labels, gathers each row's class mean back, and takes the variance as the
  mean of the squared deviations. From the count, the mean and the variance on, both apply the same host lines.

  The frames: each kernel program runs the region point by point (two control cases: a core's first step resets
  the accumulators, every later step adds to them), then its host lines, which write no argument array; the
  reference is host lines only. The idealization replaces one widening of a narrowed zero-or-one matrix by the
  matrix itself. The algebraic claim: a row whose label is no class contributes to neither side; the kernel's
  64 tiles regroup to the whole batch; and on finite features the two variances agree entry by entry.
-/
import proofs.«419888_j24352464569636_3_alg».proof.Defs
import proofs.«419888_j24352464569636_3_alg».proof.Proof.Gen.Kernel
import proofs.«419888_j24352464569636_3_alg».proof.Proof.Gen.KernelIdeal
import proofs.«419888_j24352464569636_3_alg».proof.Proof.Gen.ReferenceIdeal
import proofs.«419888_j24352464569636_3_alg».proof.Proof.Gen.Pre_finite_inputs
import proofs.«419888_j24352464569636_3_alg».proof.Proof.K.Frame
import proofs.«419888_j24352464569636_3_alg».proof.Proof.KI.RunValue
import proofs.«419888_j24352464569636_3_alg».proof.Proof.Equal
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host lines only: its run, with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The one rewrite of the idealization: widening the narrowed zero-or-one matrix gives the matrix back. -/
theorem preserves : Cert.preserves_Kernel_KernelIdeal :=
  IdealRules.truncf_extf.statement Cert.KernelIdeal.S1000x1024 .f32 .bf16

/-- From memories that agree on the arguments, finite features: both programs end with the same three results. -/
theorem algebraic : Cert.algebraic_KernelIdeal_ReferenceIdeal := by
  intro m ρ m' ρ' hpre hagree
  refine ⟨fun c => Cert.KernelIdeal.Val.res46 m c, fun c => Cert.KernelIdeal.Val.res53 m c, fun c => Cert.KernelIdeal.Val.res54 m c,
    Cert.KernelIdeal.Val.run m ρ, ?_⟩
  refine (θ_run Cert.ReferenceIdeal.defs _ _).mono (fun _ h c => ?_) (Cert.ReferenceIdeal.ValueP.run (F := Ideal) m' ρ')
  obtain ⟨h56, h63, h64, hargs⟩ := h c
  obtain ⟨e0, e1, e2, e3, e4⟩ := hagree c
  have hx := (Cert.Finite.finite_of_Pre_KernelIdeal m hpre c).1
  refine ⟨?_, ?_, ?_, hargs⟩
  · rw [h56, Cert.ReferenceIdeal.RTail.res56, e0, e1, e2, e3, e4]
    unfold Cert.KernelIdeal.Val.res46
    dsimp only [Cert.KernelIdeal.Val.cntV, Cert.KernelIdeal.Val.sumsV, Cert.KernelIdeal.Val.sqV, Cert.KernelIdeal.Val.labOf, Cert.KernelIdeal.Val.xOf]
    rw [Cert.Equal.var_eq _ _ hx, Cert.Equal.cnt_eq, Cert.Equal.sums_eq]
  · rw [h63, Cert.ReferenceIdeal.RTail.res63, e0, e1, e3, e4]
    unfold Cert.KernelIdeal.Val.res53
    dsimp only [Cert.KernelIdeal.Val.cntV, Cert.KernelIdeal.Val.sumsV, Cert.KernelIdeal.Val.sqV, Cert.KernelIdeal.Val.labOf, Cert.KernelIdeal.Val.xOf]
    rw [Cert.Equal.cnt_eq, Cert.Equal.sums_eq]
  · rw [h64, Cert.ReferenceIdeal.RTail.res64, e1, e4]
    unfold Cert.KernelIdeal.Val.res54
    dsimp only [Cert.KernelIdeal.Val.cntV, Cert.KernelIdeal.Val.sumsV, Cert.KernelIdeal.Val.sqV, Cert.KernelIdeal.Val.labOf, Cert.KernelIdeal.Val.xOf]
    rw [Cert.Equal.cnt_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
